-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x512 : Shape := ⟨2, ![32768, 512]⟩
abbrev S1024 : Shape := ⟨1, ![1024]⟩
abbrev S512 : Shape := ⟨1, ![512]⟩
abbrev S1024x1024 : Shape := ⟨2, ![1024, 1024]⟩
abbrev S512x1024 : Shape := ⟨2, ![512, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S512x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S512x1024 .f32) (main_arg9 : FVec F S1024 .f32) (main_arg10 : FVec F S1024x1024 .f32) (main_arg11 : FVec F S1024 .f32) (main_arg12 : FVec F S512x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S512 .f32) (main_arg5 : FVec F S512 .f32) (main_arg6 : FVec F S1024x1024 .f32) (main_arg7 : FVec F S1024 .f32) (main_arg8 : FVec F S512x1024 .f32) (main_arg9 : FVec F S1024 .f32) (main_arg10 : FVec F S1024x1024 .f32) (main_arg11 : FVec F S1024 .f32) (main_arg12 : FVec F S512x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1024 .f32) (main_arg1 : FVec F S32768x512 .f32) (main_arg2 : FVec F S1024 .f32) (main_arg3 : FVec F S1024 .f32) (main_arg4 : FVec F S512 .f32) (main_arg5 : FVec F S512 .f32) (main_arg6 : FVec F S1024x1024 .f32) (main_arg7 : FVec F S1024 .f32) (main_arg8 : FVec F S512x1024 .f32) (main_arg9 : FVec F S1024 .f32) (main_arg10 : FVec F S1024x1024 .f32) (main_arg11 : FVec F S1024 .f32) (main_arg12 : FVec F S512x1024 .f32) (main_arg13 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1024 : Shape := ⟨2, ![32768, 1024]⟩
abbrev S32768x512 : Shape := ⟨2, ![32768, 512]⟩
abbrev S1024 : Shape := ⟨1, ![1024]⟩
abbrev S512 : Shape := ⟨1, ![512]⟩
abbrev S1024x1024 : Shape := ⟨2, ![1024, 1024]⟩
abbrev S512x1024 : Shape := ⟨2, ![512, 1024]⟩
abbrev S512x512 : Shape := ⟨2, ![512, 512]⟩
abbrev S512x1 : Shape := ⟨2, ![512, 1]⟩
abbrev S1x1024 : Shape := ⟨2, ![1, 1024]⟩
abbrev S1x512 : Shape := ⟨2, ![1, 512]⟩

abbrev nBuf : Space → Nat
  | .hbm => 19
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S1024, .f32⟩
  | .hbm, ⟨3, _⟩ => ⟨S1024, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S512x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S512x1024, .f32⟩
  | .hbm, ⟨13, _⟩ => ⟨S1024, .f32⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S512x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1024, .f32⟩
  | .local _ .vmem, ⟨5, _⟩ => ⟨S1024, .f32⟩
  | .local _ .vmem, ⟨6, _⟩ => ⟨S512, .f32⟩
  | .local _ .vmem, ⟨7, _⟩ => ⟨S512, .f32⟩
  | .local _ .vmem, ⟨8, _⟩ => ⟨S1024x1024, .bf16⟩
  | .local _ .vmem, ⟨9, _⟩ => ⟨S1024, .f32⟩
  | .local _ .vmem, ⟨10, _⟩ => ⟨S512x1024, .bf16⟩
  | .local _ .vmem, ⟨11, _⟩ => ⟨S1024, .f32⟩
  | .local _ .vmem, ⟨12, _⟩ => ⟨S1024x1024, .bf16⟩
  | .local _ .vmem, ⟨13, _⟩ => ⟨S1024, .f32⟩
  | .local _ .vmem, ⟨14, _⟩ => ⟨S512x1024, .bf16⟩
  | .local _ .vmem, ⟨15, _⟩ => ⟨S1024, .f32⟩
  | .local _ .vmem, ⟨16, _⟩ => ⟨S512x1024, .f32⟩
  | .local _ .vmem, ⟨17, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x512_S512 : S512x512.Reduces [1] S512
  broadcasts_S512x1_S512x512 : S512x1.Broadcasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x1024 : S512x1024.ShapeCasts S512x1024
  dot_S512x1024_S1024x1024_S512x1024_1_0_0_1_n_n_wf : DotDims.WF S512x1024 S1024x1024 S512x1024 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S512x1024.size a
  hwx0_8 : ∀ i : grid0.Coords, EltTy.bits .bf16 = 32 ∨ (Rect.block (s := S512x1024) S512x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S512x1024.size a
  hwx0_12 : ∀ i : grid0.Coords, EltTy.bits .bf16 = 32 ∨ (Rect.block (s := S512x1024) S512x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024.size a ≤ S1024.size a
  hwx0_13 : ∀ i : grid0.Coords, EltTy.bits .f32 = 32 ∨ (Rect.block (s := S1024) S1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S32768x1024.size a
  hwx0_14 : ∀ i : grid0.Coords, EltTy.bits .f32 = 32 ∨ (Rect.block (s := S32768x1024) S512x1024.size (cc0_transform_14 i) (hinb0_14 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S512x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S512x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S512x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x512 : Shape := ⟨2, ![32768, 512]⟩
abbrev S1024 : Shape := ⟨1, ![1024]⟩
abbrev S512 : Shape := ⟨1, ![512]⟩
abbrev S1024x1024 : Shape := ⟨2, ![1024, 1024]⟩
abbrev S512x1024 : Shape := ⟨2, ![512, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x512 : Shape := ⟨2, ![1, 512]⟩

abbrev nBuf : Space → Nat
  | .hbm => 115
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S1024, .f32⟩
  | .hbm, ⟨3, _⟩ => ⟨S1024, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S512x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S512x1024, .f32⟩
  | .hbm, ⟨13, _⟩ => ⟨S1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S_, .f32⟩
  | .hbm, ⟨45, _⟩ => ⟨S32768x1024, .f32⟩
  | .hbm, ⟨46, _⟩ => ⟨S32768x1024, .i1⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x512, .f32⟩
  | .hbm, ⟨67, _⟩ => ⟨S32768x512, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x512, .f32⟩
  | .hbm, ⟨73, _⟩ => ⟨S32768x512, .f32⟩
  | .hbm, ⟨74, _⟩ => ⟨S1x512, .f32⟩
  | .hbm, ⟨75, _⟩ => ⟨S32768x512, .f32⟩
  | .hbm, ⟨76, _⟩ => ⟨S32768x512, .f32⟩
  | .hbm, ⟨77, _⟩ => ⟨S1x512, .f32⟩
  | .hbm, ⟨78, _⟩ => ⟨S32768x512, .f32⟩
  | .hbm, ⟨79, _⟩ => ⟨S32768x512, .f32⟩
  | .hbm, ⟨80, _⟩ => ⟨S_, .f32⟩
  | .hbm, ⟨81, _⟩ => ⟨S_, .f32⟩
  | .hbm, ⟨82, _⟩ => ⟨S32768x512, .f32⟩
  | .hbm, ⟨83, _⟩ => ⟨S32768x512, .i1⟩
  | .hbm, ⟨84, _⟩ => ⟨S_, .f32⟩
  | .hbm, ⟨85, _⟩ => ⟨S32768x512, .f32⟩
  | .hbm, ⟨86, _⟩ => ⟨S32768x512, .f32⟩
  | .hbm, ⟨87, _⟩ => ⟨S32768x512, .f32⟩
  | .hbm, ⟨88, _⟩ => ⟨S32768x1024, .f32⟩
  | .hbm, ⟨89, _⟩ => ⟨S1x1024, .f32⟩
  | .hbm, ⟨90, _⟩ => ⟨S32768x1024, .f32⟩
  | .hbm, ⟨91, _⟩ => ⟨S32768x1024, .f32⟩
  | .hbm, ⟨92, _⟩ => ⟨S32768x1024, .f32⟩
  | .hbm, ⟨93, _⟩ => ⟨S1x1024, .f32⟩
  | .hbm, ⟨94, _⟩ => ⟨S32768x1024, .f32⟩
  | .hbm, ⟨95, _⟩ => ⟨S32768x1024, .f32⟩
  | .hbm, ⟨96, _⟩ => ⟨S32768x1024, .f32⟩
  | .hbm, ⟨97, _⟩ => ⟨S1x1024, .f32⟩
  | .hbm, ⟨98, _⟩ => ⟨S32768x1024, .f32⟩
  | .hbm, ⟨99, _⟩ => ⟨S32768x1024, .f32⟩
  | .hbm, ⟨100, _⟩ => ⟨S32768x1024, .f32⟩
  | .hbm, ⟨101, _⟩ => ⟨S1x1024, .f32⟩
  | .hbm, ⟨102, _⟩ => ⟨S32768x1024, .f32⟩
  | .hbm, ⟨103, _⟩ => ⟨S32768x1024, .f32⟩
  | .hbm, ⟨104, _⟩ => ⟨S32768x1024, .f32⟩
  | .hbm, ⟨105, _⟩ => ⟨S32768x1024, .f32⟩
  | .hbm, ⟨106, _⟩ => ⟨S32768x1024, .f32⟩
  | .hbm, ⟨107, _⟩ => ⟨S_, .f32⟩
  | .hbm, ⟨108, _⟩ => ⟨S32768x1024, .f32⟩
  | .hbm, ⟨109, _⟩ => ⟨S32768x1024, .f32⟩
  | .hbm, ⟨110, _⟩ => ⟨S_, .f32⟩
  | .hbm, ⟨111, _⟩ => ⟨S32768x1024, .f32⟩
  | .hbm, ⟨112, _⟩ => ⟨S32768x1024, .f32⟩
  | .hbm, ⟨113, _⟩ => ⟨S32768x1024, .f32⟩
  | .hbm, ⟨114, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_cst_8 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_9 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_11 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  reducesTo_S32768x512_S32768_d1 : S32768x512.ReducesTo [1] S32768
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  dot_S32768x1024_S1024x1024_S32768x1024_1_0_0_1_n_n_wf : DotDims.WF S32768x1024 S1024x1024 S32768x1024 [1] [0] [0] [1] [] []
  dot_S32768x512_S512x1024_S32768x1024_1_0_0_1_n_n_wf : DotDims.WF S32768x512 S512x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf

class Facts : Prop extends Facts₀ where

variable [Facts]
-- ==== Proof.LibRowNorm.lean ====
/-
  Layer normalisation of a row followed by a leaky rectifier, row by row.

  For a row `a` of `K` numbers, a scale row `s` and a shift row `b`: with `μ = (∑ a) / d` and
  `v = (∑ (a − μ)²) / d`, entry `k` of the normalised row is `n = (a k − μ) · (v + ε)^(-1/2) · s k + b k`, and the
  rectifier keeps `n` where `n ≥ z` and takes `σ · n` elsewhere. A kernel spells this on a tile of rows with lane sums,
  column casts and broadcasts; a host program spells it on all rows with reductions and broadcasts in dimensions.
  Read at (r, k) both are the function above of row `r`: nothing depends on the number of rows.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibRowNorm

open Idealize.ShloMosaic Idealize.ShloMosaic.ValueIdx

/-- The normalised and rectified row, entry `k`: divisor `d`, stabiliser `ε`, slope `σ`, threshold `z`. -/
def normAct {K : ℕ} (d ε σ z : EReal) (a s b : Fin K → EReal) (k : Fin K) : EReal :=
  let μ := Ideal.div (∑ k', a k') d
  let n := (a k - μ) * Ideal.rsqrt (Ideal.div (∑ k', (a k' - μ) * (a k' - μ)) d + ε) * s k + b k
  Scalar.select (Ideal.cmp .oge n z) n (σ * n)

/-- The function depends on its rows only through their entries. -/
theorem normAct_congr {K : ℕ} (d ε σ z : EReal) {a a' s s' b b' : Fin K → EReal} (ha : ∀ k, a k = a' k)
    (hs : ∀ k, s k = s' k) (hb : ∀ k, b k = b' k) (k : Fin K) :
    normAct d ε σ z a s b k = normAct d ε σ z a' s' b' k := by
  rw [show a = a' from funext ha, show s = s' from funext hs, show b = b' from funext hb]

section Spellings

variable {F : FTy → Type} [FloatOps F] {M K : ℕ}

/-- A kernel's spelling on a tile of `M` rows: lane sums cast to a column, divided by a splat, broadcast along the
    rows; the scale and shift rows cast to one-row matrices and broadcast down the rows; compare, select, and a final
    change of float format. -/
def kernelNormAct (dbits εbits σbits zbits : BitVec 32)
    (hred : (⟨2, ![M, K]⟩ : Shape).Reduces [1] ⟨1, ![M]⟩) (hcol : (⟨1, ![M]⟩ : Shape).ShapeCasts ⟨2, ![M, 1]⟩)
    (hbcol : (⟨2, ![M, 1]⟩ : Shape).Broadcasts ⟨2, ![M, K]⟩) (hrow : (⟨1, ![K]⟩ : Shape).ShapeCasts ⟨2, ![1, K]⟩)
    (hbrow : (⟨2, ![1, K]⟩ : Shape).Broadcasts ⟨2, ![M, K]⟩) (hlt : FTy.bits .bf16 < FTy.bits .f32)
    (x : FVec F ⟨2, ![M, K]⟩ .f32) (s b : FVec F ⟨1, ![K]⟩ .f32) : FVec F ⟨2, ![M, K]⟩ .bf16 :=
  have mean : FVec F ⟨2, ![M, 1]⟩ .f32 :=
    divf (shapeCast ⟨2, ![M, 1]⟩ (multiReduction .add [1] ⟨1, ![M]⟩ x 0x00000000#32 hred (.inl rfl) rfl) hcol)
      (broadcast ⟨2, ![M, 1]⟩ (Scalar.ofBits .f32 dbits))
  have cen : FVec F ⟨2, ![M, K]⟩ .f32 := subf x (broadcastTo ⟨2, ![M, K]⟩ mean hbcol)
  have var : FVec F ⟨2, ![M, 1]⟩ .f32 :=
    divf (shapeCast ⟨2, ![M, 1]⟩ (multiReduction .add [1] ⟨1, ![M]⟩ (mulf cen cen) 0x00000000#32 hred (.inl rfl) rfl) hcol)
      (broadcast ⟨2, ![M, 1]⟩ (Scalar.ofBits .f32 dbits))
  have nrm : FVec F ⟨2, ![M, K]⟩ .f32 :=
    addf (mulf (mulf cen (broadcastTo ⟨2, ![M, K]⟩ (rsqrt (addf var (broadcast ⟨2, ![M, 1]⟩ (Scalar.ofBits .f32 εbits)))) hbcol))
        (broadcastTo ⟨2, ![M, K]⟩ (shapeCast ⟨2, ![1, K]⟩ s hrow) hbrow))
      (broadcastTo ⟨2, ![M, K]⟩ (shapeCast ⟨2, ![1, K]⟩ b hrow) hbrow)
  truncf .bf16 (select (cmpf .oge nrm (broadcast ⟨2, ![M, K]⟩ (Scalar.ofBits .f32 zbits))) nrm
    (mulf (broadcast ⟨2, ![M, K]⟩ (Scalar.ofBits .f32 σbits)) nrm)) hlt

/-- A host program's spelling on all `M` rows: reductions from a scalar zero, broadcasts in dimensions, the host's
    quotient and reciprocal square root; the rectifier as a compare against a broadcast scalar, a product with the
    broadcast slope, and a select. -/
def hostNormAct (dbits εbits σbits zbits : BitVec 32)
    (hred : (⟨2, ![M, K]⟩ : Shape).ReducesTo [1] ⟨1, ![M]⟩) (h0 : 0 < (⟨0, ![]⟩ : Shape).numel)
    (hb0 : (⟨1, ![M]⟩ : Shape).BroadcastsInDim ⟨2, ![M, 1]⟩ ![0])
    (hbs1 : (⟨0, ![]⟩ : Shape).BroadcastsInDim ⟨2, ![M, 1]⟩ ![])
    (hb01 : (⟨2, ![M, 1]⟩ : Shape).BroadcastsInDim ⟨2, ![M, K]⟩ ![0, 1])
    (hb1 : (⟨1, ![K]⟩ : Shape).BroadcastsInDim ⟨2, ![1, K]⟩ ![1])
    (hbr01 : (⟨2, ![1, K]⟩ : Shape).BroadcastsInDim ⟨2, ![M, K]⟩ ![0, 1])
    (hbs : (⟨0, ![]⟩ : Shape).BroadcastsInDim ⟨2, ![M, K]⟩ ![])
    (x : FVec F ⟨2, ![M, K]⟩ .f32) (s b : FVec F ⟨1, ![K]⟩ .f32) : FVec F ⟨2, ![M, K]⟩ .f32 :=
  have mean : FVec F ⟨2, ![M, 1]⟩ .f32 :=
    Host.divf (broadcastInDim ⟨2, ![M, 1]⟩ ![0] hb0 (Host.reduceAdd x (constant ⟨0, ![]⟩ .f32 0x00000000#32) hred h0))
      (broadcastInDim ⟨2, ![M, 1]⟩ ![] hbs1 (constant ⟨0, ![]⟩ .f32 dbits))
  have cen : FVec F ⟨2, ![M, K]⟩ .f32 := subf x (broadcastInDim ⟨2, ![M, K]⟩ ![0, 1] hb01 mean)
  have var : FVec F ⟨2, ![M, 1]⟩ .f32 :=
    Host.divf (broadcastInDim ⟨2, ![M, 1]⟩ ![0] hb0
        (Host.reduceAdd (mulf cen cen) (constant ⟨0, ![]⟩ .f32 0x00000000#32) hred h0))
      (broadcastInDim ⟨2, ![M, 1]⟩ ![] hbs1 (constant ⟨0, ![]⟩ .f32 dbits))
  have nrm : FVec F ⟨2, ![M, K]⟩ .f32 :=
    addf (mulf (mulf cen (broadcastInDim ⟨2, ![M, K]⟩ ![0, 1] hb01
          (Host.rsqrt (addf var (broadcastInDim ⟨2, ![M, 1]⟩ ![] hbs1 (constant ⟨0, ![]⟩ .f32 εbits))))))
        (broadcastInDim ⟨2, ![M, K]⟩ ![0, 1] hbr01 (broadcastInDim ⟨2, ![1, K]⟩ ![1] hb1 s)))
      (broadcastInDim ⟨2, ![M, K]⟩ ![0, 1] hbr01 (broadcastInDim ⟨2, ![1, K]⟩ ![1] hb1 b))
  select (cmpf .oge nrm (broadcastInDim ⟨2, ![M, K]⟩ ![] hbs (constant ⟨0, ![]⟩ .f32 zbits))) nrm
    (mulf (broadcastInDim ⟨2, ![M, K]⟩ ![] hbs (id (constant ⟨0, ![]⟩ .f32 σbits))) nrm)

end Spellings

section Layout

variable {α : Type}

/-- A vector of `a` entries cast to an `a × 1` column reads, at `(i, u)`, the vector at `i`: both have row-major
    position `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along the rows to `a × b` reads, at `(p, c)`, the column at `(p, 0)`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `a` entries broadcast in dimension 0 to an `a × 1` column reads, at `(i, u)`, the vector at `i`. -/
private theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `a × 1` column broadcast in dimensions (0, 1) to `a × b` reads, at `(p, c)`, the column at `(p, 0)`. -/
private theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `b` entries broadcast in dimension 1 to a one-row matrix reads, at `(u, c)`, the vector at `c`. -/
private theorem broadcastInDim_b_1b_apply {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

end Layout

section RowSums

variable {M K : ℕ}

/-- Over the row index `r`, the matrix index with lane `k` put back on axis 1 is `(r, k)`. -/
private theorem lift_row (h : (⟨2, ![M, K]⟩ : Shape).Reduces [1] ⟨1, ![M]⟩) (r : Fin M) (k : Fin K) :
    h.lift (ix1 r) k = ix2 r k := by
  funext c
  match c with
  | ⟨0, _⟩ => exact Fin.ext rfl
  | ⟨1, _⟩ => exact Fin.ext rfl

/-- A kernel's lane sum (its accumulator the zero word) read at row `r`: the sum of row `r`'s entries. -/
private theorem rowSum_kernel (src : FVec Ideal ⟨2, ![M, K]⟩ .f32) (h : (⟨2, ![M, K]⟩ : Shape).Reduces [1] ⟨1, ![M]⟩)
    (hφ : FKind.Formats .f32) (hacc : (0x00000000#32 : BitVec 32) = FKind.add.neutral .f32 hφ) (r : Fin M) :
    multiReduction (F := Ideal) .add [1] ⟨1, ![M]⟩ src 0x00000000#32 h hφ hacc (ix1 r) = ∑ k : Fin K, src (ix2 r k) := by
  refine (Ideal.multiReduction_add_single src _ h hφ hacc (ix1 r)).trans ?_
  show ∑ k : Fin K, src (h.lift (ix1 r) k) = _
  exact Finset.sum_congr rfl fun k _ => by rw [lift_row]

/-- A host reduction over axis 1 from the scalar zero read at row `r`: zero plus the sum of row `r`'s entries. -/
private theorem rowSum_host (src : FVec Ideal ⟨2, ![M, K]⟩ .f32) (h' : (⟨2, ![M, K]⟩ : Shape).ReducesTo [1] ⟨1, ![M]⟩)
    (h0 : 0 < (⟨0, ![]⟩ : Shape).numel) (r : Fin M) :
    Host.reduceAdd (F := Ideal) src (constant (F := Ideal) ⟨0, ![]⟩ .f32 0x00000000#32) h' h0 (ix1 r)
      = ∑ k : Fin K, src (ix2 r k) := by
  have h : (⟨2, ![M, K]⟩ : Shape).Reduces [1] ⟨1, ![M]⟩ := ⟨h'.1, Nat.one_pos, h'.2⟩
  show Ideal.hostReduceAdd h' src (Ideal.ofBits .f32 0x00000000#32) (ix1 r) = _
  rw [Ideal.hostReduceAdd_single h' h, Ideal.ofBits_zero_f32, zero_add]
  show ∑ k : Fin K, src (h.lift (ix1 r) k) = _
  exact Finset.sum_congr rfl fun k _ => by rw [lift_row]

/-- A kernel's column of row sums over a splat divisor, read at `(r, u)`: the quotient of row `r`'s sum. -/
private theorem kernelCol_apply (dbits : BitVec 32) (hred : (⟨2, ![M, K]⟩ : Shape).Reduces [1] ⟨1, ![M]⟩)
    (hcol : (⟨1, ![M]⟩ : Shape).ShapeCasts ⟨2, ![M, 1]⟩) (src : FVec Ideal ⟨2, ![M, K]⟩ .f32) (r : Fin M) (u : Fin 1) :
    divf (shapeCast ⟨2, ![M, 1]⟩ (multiReduction (F := Ideal) .add [1] ⟨1, ![M]⟩ src 0x00000000#32 hred (.inl rfl) rfl) hcol)
        (broadcast ⟨2, ![M, 1]⟩ (Scalar.ofBits .f32 dbits)) (ix2 r u)
      = Ideal.div (∑ k : Fin K, src (ix2 r k)) (Ideal.ofBits .f32 dbits) :=
  congrArg (Ideal.div · (Ideal.ofBits .f32 dbits))
    ((shapeCast_a_a1_apply _ hcol r u).trans (rowSum_kernel src hred _ _ r))

/-- A host program's column of row sums over a broadcast scalar divisor, read at `(r, u)`: the same quotient. -/
private theorem hostCol_apply (dbits : BitVec 32) (hred : (⟨2, ![M, K]⟩ : Shape).ReducesTo [1] ⟨1, ![M]⟩)
    (h0 : 0 < (⟨0, ![]⟩ : Shape).numel) (hb0 : (⟨1, ![M]⟩ : Shape).BroadcastsInDim ⟨2, ![M, 1]⟩ ![0])
    (hbs1 : (⟨0, ![]⟩ : Shape).BroadcastsInDim ⟨2, ![M, 1]⟩ ![])
    (src : FVec Ideal ⟨2, ![M, K]⟩ .f32) (r : Fin M) (u : Fin 1) :
    Host.divf (broadcastInDim ⟨2, ![M, 1]⟩ ![0] hb0
          (Host.reduceAdd (F := Ideal) src (constant ⟨0, ![]⟩ .f32 0x00000000#32) hred h0))
        (broadcastInDim ⟨2, ![M, 1]⟩ ![] hbs1 (constant (F := Ideal) ⟨0, ![]⟩ .f32 dbits)) (ix2 r u)
      = Ideal.div (∑ k : Fin K, src (ix2 r k)) (Ideal.ofBits .f32 dbits) :=
  congrArg (Ideal.div · (Ideal.ofBits .f32 dbits))
    ((broadcastInDim_a_a1_apply hb0 _ r u).trans (rowSum_host src hred h0 r))

end RowSums

section AtIdeal

variable {M K : ℕ}

/-- The kernel's spelling read at (r, k) is the row function of row `r`. -/
theorem kernelNormAct_apply (dbits εbits σbits zbits : BitVec 32)
    (hred : (⟨2, ![M, K]⟩ : Shape).Reduces [1] ⟨1, ![M]⟩) (hcol : (⟨1, ![M]⟩ : Shape).ShapeCasts ⟨2, ![M, 1]⟩)
    (hbcol : (⟨2, ![M, 1]⟩ : Shape).Broadcasts ⟨2, ![M, K]⟩) (hrow : (⟨1, ![K]⟩ : Shape).ShapeCasts ⟨2, ![1, K]⟩)
    (hbrow : (⟨2, ![1, K]⟩ : Shape).Broadcasts ⟨2, ![M, K]⟩) (hlt : FTy.bits .bf16 < FTy.bits .f32)
    (x : FVec Ideal ⟨2, ![M, K]⟩ .f32) (s b : FVec Ideal ⟨1, ![K]⟩ .f32) (r : Fin M) (k : Fin K) :
    kernelNormAct (F := Ideal) dbits εbits σbits zbits hred hcol hbcol hrow hbrow hlt x s b (ix2 r k)
      = normAct (Ideal.ofBits .f32 dbits) (Ideal.ofBits .f32 εbits) (Ideal.ofBits .f32 σbits) (Ideal.ofBits .f32 zbits)
          (fun k' => x (ix2 r k')) (fun k' => s (ix1 k')) (fun k' => b (ix1 k')) k := by
  let mean : FVec Ideal ⟨2, ![M, 1]⟩ .f32 :=
    divf (shapeCast ⟨2, ![M, 1]⟩ (multiReduction (F := Ideal) .add [1] ⟨1, ![M]⟩ x 0x00000000#32 hred (.inl rfl) rfl) hcol)
      (broadcast ⟨2, ![M, 1]⟩ (Scalar.ofBits .f32 dbits))
  let cen : FVec Ideal ⟨2, ![M, K]⟩ .f32 := subf x (broadcastTo ⟨2, ![M, K]⟩ mean hbcol)
  let var : FVec Ideal ⟨2, ![M, 1]⟩ .f32 :=
    divf (shapeCast ⟨2, ![M, 1]⟩ (multiReduction (F := Ideal) .add [1] ⟨1, ![M]⟩ (mulf cen cen) 0x00000000#32 hred (.inl rfl) rfl) hcol)
      (broadcast ⟨2, ![M, 1]⟩ (Scalar.ofBits .f32 dbits))
  let nrm : FVec Ideal ⟨2, ![M, K]⟩ .f32 :=
    addf (mulf (mulf cen (broadcastTo ⟨2, ![M, K]⟩ (rsqrt (addf var (broadcast ⟨2, ![M, 1]⟩ (Scalar.ofBits .f32 εbits)))) hbcol))
        (broadcastTo ⟨2, ![M, K]⟩ (shapeCast ⟨2, ![1, K]⟩ s hrow) hbrow))
      (broadcastTo ⟨2, ![M, K]⟩ (shapeCast ⟨2, ![1, K]⟩ b hrow) hbrow)
  -- the mean column at (r, u) is row r's sum over the divisor
  have hmean : ∀ u : Fin 1, mean (ix2 r u) = Ideal.div (∑ k', x (ix2 r k')) (Ideal.ofBits .f32 dbits) :=
    fun u => kernelCol_apply dbits hred hcol x r u
  -- the centred value at (r, k') is the entry less that mean
  have hcen : ∀ k' : Fin K, cen (ix2 r k') = x (ix2 r k') - Ideal.div (∑ k', x (ix2 r k')) (Ideal.ofBits .f32 dbits) :=
    fun k' => by
      show x (ix2 r k') - broadcastTo ⟨2, ![M, K]⟩ mean hbcol (ix2 r k') = _
      rw [broadcastTo_a1_ab_apply, hmean]
  -- the variance column at (r, u) is the sum of row r's squared centred values over the divisor
  have hvar : ∀ u : Fin 1, var (ix2 r u)
      = Ideal.div (∑ k', (x (ix2 r k') - Ideal.div (∑ k', x (ix2 r k')) (Ideal.ofBits .f32 dbits))
          * (x (ix2 r k') - Ideal.div (∑ k', x (ix2 r k')) (Ideal.ofBits .f32 dbits))) (Ideal.ofBits .f32 dbits) :=
    fun u => by
      refine (kernelCol_apply dbits hred hcol (mulf cen cen) r u).trans ?_
      show Ideal.div (∑ k', cen (ix2 r k') * cen (ix2 r k')) _ = _
      simp only [hcen]
  -- the normalised value at (r, k): column broadcasts read at (r, 0), the scale and shift rows at k
  have hnrm : nrm (ix2 r k)
      = (x (ix2 r k) - Ideal.div (∑ k', x (ix2 r k')) (Ideal.ofBits .f32 dbits))
          * Ideal.rsqrt (Ideal.div (∑ k', (x (ix2 r k') - Ideal.div (∑ k', x (ix2 r k')) (Ideal.ofBits .f32 dbits))
              * (x (ix2 r k') - Ideal.div (∑ k', x (ix2 r k')) (Ideal.ofBits .f32 dbits))) (Ideal.ofBits .f32 dbits)
            + Ideal.ofBits .f32 εbits) * s (ix1 k) + b (ix1 k) := by
    show cen (ix2 r k)
          * broadcastTo ⟨2, ![M, K]⟩ (rsqrt (addf var (broadcast ⟨2, ![M, 1]⟩ (Scalar.ofBits .f32 εbits)))) hbcol (ix2 r k)
          * broadcastTo ⟨2, ![M, K]⟩ (shapeCast ⟨2, ![1, K]⟩ s hrow) hbrow (ix2 r k)
        + broadcastTo ⟨2, ![M, K]⟩ (shapeCast ⟨2, ![1, K]⟩ b hrow) hbrow (ix2 r k) = _
    rw [broadcastTo_a1_ab_apply, broadcastTo_1b_ab_apply, broadcastTo_1b_ab_apply, shapeCast_a_1a_apply,
      shapeCast_a_1a_apply, hcen]
    show _ * Ideal.rsqrt (var (ix2 r 0) + Ideal.ofBits .f32 εbits) * _ + _ = _
    rw [hvar]
  -- the rectifier is pointwise, and the change of format is the identity
  show Scalar.select (Ideal.cmp .oge (nrm (ix2 r k)) (Ideal.ofBits .f32 zbits)) (nrm (ix2 r k))
      (Ideal.ofBits .f32 σbits * nrm (ix2 r k)) = _
  rw [hnrm]
  rfl

/-- The host's spelling read at (r, k) is the same row function of row `r`. -/
theorem hostNormAct_apply (dbits εbits σbits zbits : BitVec 32)
    (hred : (⟨2, ![M, K]⟩ : Shape).ReducesTo [1] ⟨1, ![M]⟩) (h0 : 0 < (⟨0, ![]⟩ : Shape).numel)
    (hb0 : (⟨1, ![M]⟩ : Shape).BroadcastsInDim ⟨2, ![M, 1]⟩ ![0])
    (hbs1 : (⟨0, ![]⟩ : Shape).BroadcastsInDim ⟨2, ![M, 1]⟩ ![])
    (hb01 : (⟨2, ![M, 1]⟩ : Shape).BroadcastsInDim ⟨2, ![M, K]⟩ ![0, 1])
    (hb1 : (⟨1, ![K]⟩ : Shape).BroadcastsInDim ⟨2, ![1, K]⟩ ![1])
    (hbr01 : (⟨2, ![1, K]⟩ : Shape).BroadcastsInDim ⟨2, ![M, K]⟩ ![0, 1])
    (hbs : (⟨0, ![]⟩ : Shape).BroadcastsInDim ⟨2, ![M, K]⟩ ![])
    (x : FVec Ideal ⟨2, ![M, K]⟩ .f32) (s b : FVec Ideal ⟨1, ![K]⟩ .f32) (r : Fin M) (k : Fin K) :
    hostNormAct (F := Ideal) dbits εbits σbits zbits hred h0 hb0 hbs1 hb01 hb1 hbr01 hbs x s b (ix2 r k)
      = normAct (Ideal.ofBits .f32 dbits) (Ideal.ofBits .f32 εbits) (Ideal.ofBits .f32 σbits) (Ideal.ofBits .f32 zbits)
          (fun k' => x (ix2 r k')) (fun k' => s (ix1 k')) (fun k' => b (ix1 k')) k := by
  let mean : FVec Ideal ⟨2, ![M, 1]⟩ .f32 :=
    Host.divf (broadcastInDim ⟨2, ![M, 1]⟩ ![0] hb0
        (Host.reduceAdd (F := Ideal) x (constant ⟨0, ![]⟩ .f32 0x00000000#32) hred h0))
      (broadcastInDim ⟨2, ![M, 1]⟩ ![] hbs1 (constant (F := Ideal) ⟨0, ![]⟩ .f32 dbits))
  let cen : FVec Ideal ⟨2, ![M, K]⟩ .f32 := subf x (broadcastInDim ⟨2, ![M, K]⟩ ![0, 1] hb01 mean)
  let var : FVec Ideal ⟨2, ![M, 1]⟩ .f32 :=
    Host.divf (broadcastInDim ⟨2, ![M, 1]⟩ ![0] hb0
        (Host.reduceAdd (F := Ideal) (mulf cen cen) (constant ⟨0, ![]⟩ .f32 0x00000000#32) hred h0))
      (broadcastInDim ⟨2, ![M, 1]⟩ ![] hbs1 (constant (F := Ideal) ⟨0, ![]⟩ .f32 dbits))
  let nrm : FVec Ideal ⟨2, ![M, K]⟩ .f32 :=
    addf (mulf (mulf cen (broadcastInDim ⟨2, ![M, K]⟩ ![0, 1] hb01
          (Host.rsqrt (addf var (broadcastInDim ⟨2, ![M, 1]⟩ ![] hbs1 (constant (F := Ideal) ⟨0, ![]⟩ .f32 εbits))))))
        (broadcastInDim ⟨2, ![M, K]⟩ ![0, 1] hbr01 (broadcastInDim ⟨2, ![1, K]⟩ ![1] hb1 s)))
      (broadcastInDim ⟨2, ![M, K]⟩ ![0, 1] hbr01 (broadcastInDim ⟨2, ![1, K]⟩ ![1] hb1 b))
  -- the mean column at (r, u) is row r's sum over the divisor
  have hmean : ∀ u : Fin 1, mean (ix2 r u) = Ideal.div (∑ k', x (ix2 r k')) (Ideal.ofBits .f32 dbits) :=
    fun u => hostCol_apply dbits hred h0 hb0 hbs1 x r u
  -- the centred value at (r, k') is the entry less that mean
  have hcen : ∀ k' : Fin K, cen (ix2 r k') = x (ix2 r k') - Ideal.div (∑ k', x (ix2 r k')) (Ideal.ofBits .f32 dbits) :=
    fun k' => by
      show x (ix2 r k') - broadcastInDim ⟨2, ![M, K]⟩ ![0, 1] hb01 mean (ix2 r k') = _
      rw [broadcastInDim_a1_ab_apply, hmean]
  -- the variance column at (r, u) is the sum of row r's squared centred values over the divisor
  have hvar : ∀ u : Fin 1, var (ix2 r u)
      = Ideal.div (∑ k', (x (ix2 r k') - Ideal.div (∑ k', x (ix2 r k')) (Ideal.ofBits .f32 dbits))
          * (x (ix2 r k') - Ideal.div (∑ k', x (ix2 r k')) (Ideal.ofBits .f32 dbits))) (Ideal.ofBits .f32 dbits) :=
    fun u => by
      refine (hostCol_apply dbits hred h0 hb0 hbs1 (mulf cen cen) r u).trans ?_
      show Ideal.div (∑ k', cen (ix2 r k') * cen (ix2 r k')) _ = _
      simp only [hcen]
  -- the normalised value at (r, k): column broadcasts read at (r, 0), the scale and shift rows at k
  have hnrm : nrm (ix2 r k)
      = (x (ix2 r k) - Ideal.div (∑ k', x (ix2 r k')) (Ideal.ofBits .f32 dbits))
          * Ideal.rsqrt (Ideal.div (∑ k', (x (ix2 r k') - Ideal.div (∑ k', x (ix2 r k')) (Ideal.ofBits .f32 dbits))
              * (x (ix2 r k') - Ideal.div (∑ k', x (ix2 r k')) (Ideal.ofBits .f32 dbits))) (Ideal.ofBits .f32 dbits)
            + Ideal.ofBits .f32 εbits) * s (ix1 k) + b (ix1 k) := by
    show cen (ix2 r k)
          * broadcastInDim ⟨2, ![M, K]⟩ ![0, 1] hb01
              (Host.rsqrt (addf var (broadcastInDim ⟨2, ![M, 1]⟩ ![] hbs1 (constant (F := Ideal) ⟨0, ![]⟩ .f32 εbits)))) (ix2 r k)
          * broadcastInDim ⟨2, ![M, K]⟩ ![0, 1] hbr01 (broadcastInDim ⟨2, ![1, K]⟩ ![1] hb1 s) (ix2 r k)
        + broadcastInDim ⟨2, ![M, K]⟩ ![0, 1] hbr01 (broadcastInDim ⟨2, ![1, K]⟩ ![1] hb1 b) (ix2 r k) = _
    rw [broadcastInDim_a1_ab_apply, broadcastInDim_oneRow_apply, broadcastInDim_oneRow_apply, broadcastInDim_b_1b_apply,
      broadcastInDim_b_1b_apply, hcen]
    show _ * Ideal.rsqrt (var (ix2 r 0) + Ideal.ofBits .f32 εbits) * _ + _ = _
    rw [hvar]
  -- the rectifier is pointwise; a broadcast scalar constant reads its value everywhere
  show Scalar.select (Ideal.cmp .oge (nrm (ix2 r k)) (Ideal.ofBits .f32 zbits)) (nrm (ix2 r k))
      (Ideal.ofBits .f32 σbits * nrm (ix2 r k)) = _
  rw [hnrm]
  rfl

end AtIdeal

end Cert.LibRowNorm

end
-- ==== Proof.RowSpec.lean ====
/-
  What one row of the result is, as a function of the two input rows and the parameters.

  Each of the two streams normalises its row, rectifies it, and feeds it to two dense layers (an output layer and a gate
  layer); the result at column `j` is the logistic function of the sum of the two gate layers times the sum of the two
  output layers.
-/
import proofs.«125668_j41180146434605_1_alg».proof.Proof.LibRowNorm

noncomputable section

namespace Cert.VecMerge

open Idealize.ShloMosaic Idealize.ShloMosaic.ValueIdx Cert.LibRowNorm

/-- A dense layer on a row: `∑ k, f k · W k j + b j`. -/
def lin {K N : ℕ} (f : Fin K → EReal) (W : Fin K → Fin N → EReal) (b : Fin N → EReal) (j : Fin N) : EReal :=
  ∑ k : Fin K, f k * W k j + b j

/-- The gated mix of two activated rows `f1`, `f2`, column `j`. -/
def gated {K1 K2 N : ℕ} (f1 : Fin K1 → EReal) (f2 : Fin K2 → EReal)
    (Wo1 : Fin K1 → Fin N → EReal) (bo1 : Fin N → EReal) (Wo2 : Fin K2 → Fin N → EReal) (bo2 : Fin N → EReal)
    (Wg1 : Fin K1 → Fin N → EReal) (bg1 : Fin N → EReal) (Wg2 : Fin K2 → Fin N → EReal) (bg2 : Fin N → EReal)
    (j : Fin N) : EReal :=
  Ideal.logistic (lin f1 Wg1 bg1 j + lin f2 Wg2 bg2 j) * (lin f1 Wo1 bo1 j + lin f2 Wo2 bo2 j)

/-- The divisors, stabiliser, slope and threshold of this kernel, as extended reals. -/
abbrev d1 : EReal := Ideal.ofBits .f32 0x44800000#32
abbrev d2 : EReal := Ideal.ofBits .f32 0x44000000#32
abbrev eps : EReal := Ideal.ofBits .f32 0x358637BD#32
abbrev slope : EReal := Ideal.ofBits .f32 0x3C23D70A#32
abbrev zero : EReal := Ideal.ofBits .f32 0x00000000#32

/-- One row of the result: rows `a1` (1024 entries) and `a2` (512 entries) normalised, rectified, and mixed. -/
def rowOut (a1 : Fin 1024 → EReal) (a2 : Fin 512 → EReal) (s1 b1 : Fin 1024 → EReal) (s2 b2 : Fin 512 → EReal)
    (Wo1 : Fin 1024 → Fin 1024 → EReal) (bo1 : Fin 1024 → EReal) (Wo2 : Fin 512 → Fin 1024 → EReal) (bo2 : Fin 1024 → EReal)
    (Wg1 : Fin 1024 → Fin 1024 → EReal) (bg1 : Fin 1024 → EReal) (Wg2 : Fin 512 → Fin 1024 → EReal) (bg2 : Fin 1024 → EReal)
    (j : Fin 1024) : EReal :=
  gated (normAct d1 eps slope zero a1 s1 b1) (normAct d2 eps slope zero a2 s2 b2) Wo1 bo1 Wo2 bo2 Wg1 bg1 Wg2 bg2 j

/-- The whole result array as one function of the fourteen argument arrays, index by index: row `i 0` of the two
    inputs through `rowOut`, read at column `i 1`. -/
def arrOut (x1 : (⟨2, ![32768, 1024]⟩ : Shape).Idx → EReal) (x2 : (⟨2, ![32768, 512]⟩ : Shape).Idx → EReal)
    (s1 b1 : (⟨1, ![1024]⟩ : Shape).Idx → EReal) (s2 b2 : (⟨1, ![512]⟩ : Shape).Idx → EReal)
    (Wo1 : (⟨2, ![1024, 1024]⟩ : Shape).Idx → EReal) (bo1 : (⟨1, ![1024]⟩ : Shape).Idx → EReal)
    (Wo2 : (⟨2, ![512, 1024]⟩ : Shape).Idx → EReal) (bo2 : (⟨1, ![1024]⟩ : Shape).Idx → EReal)
    (Wg1 : (⟨2, ![1024, 1024]⟩ : Shape).Idx → EReal) (bg1 : (⟨1, ![1024]⟩ : Shape).Idx → EReal)
    (Wg2 : (⟨2, ![512, 1024]⟩ : Shape).Idx → EReal) (bg2 : (⟨1, ![1024]⟩ : Shape).Idx → EReal) :
    (⟨2, ![32768, 1024]⟩ : Shape).Idx → EReal := fun i =>
  rowOut (fun k => x1 (ix2 (i 0 : Fin 32768) k)) (fun k => x2 (ix2 (i 0 : Fin 32768) k))
    (fun k => s1 (ix1 k)) (fun k => b1 (ix1 k)) (fun k => s2 (ix1 k)) (fun k => b2 (ix1 k))
    (fun k n => Wo1 (ix2 k n)) (fun n => bo1 (ix1 n)) (fun k n => Wo2 (ix2 k n)) (fun n => bo2 (ix1 n))
    (fun k n => Wg1 (ix2 k n)) (fun n => bg1 (ix1 n)) (fun k n => Wg2 (ix2 k n)) (fun n => bg2 (ix1 n))
    (i 1 : Fin 1024)

/-- The array function at (r, j). -/
theorem arrOut_ix2 (x1 : (⟨2, ![32768, 1024]⟩ : Shape).Idx → EReal) (x2 : (⟨2, ![32768, 512]⟩ : Shape).Idx → EReal)
    (s1 b1 : (⟨1, ![1024]⟩ : Shape).Idx → EReal) (s2 b2 : (⟨1, ![512]⟩ : Shape).Idx → EReal)
    (Wo1 : (⟨2, ![1024, 1024]⟩ : Shape).Idx → EReal) (bo1 : (⟨1, ![1024]⟩ : Shape).Idx → EReal)
    (Wo2 : (⟨2, ![512, 1024]⟩ : Shape).Idx → EReal) (bo2 : (⟨1, ![1024]⟩ : Shape).Idx → EReal)
    (Wg1 : (⟨2, ![1024, 1024]⟩ : Shape).Idx → EReal) (bg1 : (⟨1, ![1024]⟩ : Shape).Idx → EReal)
    (Wg2 : (⟨2, ![512, 1024]⟩ : Shape).Idx → EReal) (bg2 : (⟨1, ![1024]⟩ : Shape).Idx → EReal)
    (r : Fin 32768) (j : Fin 1024) :
    arrOut x1 x2 s1 b1 s2 b2 Wo1 bo1 Wo2 bo2 Wg1 bg1 Wg2 bg2 (ix2 r j)
      = rowOut (fun k => x1 (ix2 r k)) (fun k => x2 (ix2 r k))
          (fun k => s1 (ix1 k)) (fun k => b1 (ix1 k)) (fun k => s2 (ix1 k)) (fun k => b2 (ix1 k))
          (fun k n => Wo1 (ix2 k n)) (fun n => bo1 (ix1 n)) (fun k n => Wo2 (ix2 k n)) (fun n => bo2 (ix1 n))
          (fun k n => Wg1 (ix2 k n)) (fun n => bg1 (ix1 n)) (fun k n => Wg2 (ix2 k n)) (fun n => bg2 (ix1 n)) j := rfl

end Cert.VecMerge

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KernelPay.lean ====
/-
  What the kernel body stores at entry (p, j) of its output tile: the row function `rowOut` of row `p` of the two input
  tiles and of the parameter blocks, at column `j`.
-/
import proofs.«125668_j41180146434605_1_alg».proof.Proof.Gen.KernelIdeal.Frame
import proofs.«125668_j41180146434605_1_alg».proof.Proof.RowSpec
import proofs.«125668_j41180146434605_1_alg».proof.Proof.LibDense

noncomputable section

namespace Cert.KernelIdeal.KPay

open Idealize.ShloMosaic Idealize.ShloMosaic.ValueIdx Cert.KernelIdeal Cert.KernelIdeal.Gen Cert.VecMerge Cert.LibRowNorm

section Generic

variable {M K N : ℕ}

/-- A bias vector cast to a one-row matrix and laid along every row reads, at (p, j), the vector at `j`. -/
theorem bias_apply (b : FVec Ideal ⟨1, ![N]⟩ .f32) (hrow : (⟨1, ![N]⟩ : Shape).ShapeCasts ⟨2, ![1, N]⟩)
    (hb : (⟨2, ![1, N]⟩ : Shape).Broadcasts ⟨2, ![M, N]⟩) (p : Fin M) (j : Fin N) :
    broadcastTo ⟨2, ![M, N]⟩ (shapeCast ⟨2, ![1, N]⟩ b hrow) hb (ix2 p j) = b (ix1 j) :=
  (broadcastTo_1b_ab_apply _ hb p j).trans (shapeCast_a_1a_apply b hrow 0 j)

/-- A rows-by-columns product into a zero accumulator, the weight block cast to its own shape, read at (p, j):
    the sum over the contracted coordinate. -/
theorem prod_apply {φ₁ φ₂ : FTy} (d : DotDims ⟨2, ![M, K]⟩ ⟨2, ![K, N]⟩ ⟨2, ![M, N]⟩) (hd : d = DotDims.plain M K N)
    (f : FVec Ideal ⟨2, ![M, K]⟩ φ₁) (W : FVec Ideal ⟨2, ![K, N]⟩ φ₂)
    (hW : (⟨2, ![K, N]⟩ : Shape).ShapeCasts ⟨2, ![K, N]⟩) (p : Fin M) (j : Fin N) :
    matmul d none f (shapeCast ⟨2, ![K, N]⟩ W hW) (constant (F := Ideal) ⟨2, ![M, N]⟩ .f32 0x00000000#32) (ix2 p j)
      = ∑ k : Fin K, f (ix2 p k) * W (ix2 k j) := by
  subst hd
  rw [shapeCast_self]
  exact LibDense.matmul_plain_zero_apply none f W p j

/-- The product plus the bias row, read at (p, j): the dense layer of row `p`. -/
theorem layer_apply {φ₁ φ₂ : FTy} (d : DotDims ⟨2, ![M, K]⟩ ⟨2, ![K, N]⟩ ⟨2, ![M, N]⟩) (hd : d = DotDims.plain M K N)
    (f : FVec Ideal ⟨2, ![M, K]⟩ φ₁) (W : FVec Ideal ⟨2, ![K, N]⟩ φ₂)
    (hW : (⟨2, ![K, N]⟩ : Shape).ShapeCasts ⟨2, ![K, N]⟩) (b : FVec Ideal ⟨1, ![N]⟩ .f32)
    (hrow : (⟨1, ![N]⟩ : Shape).ShapeCasts ⟨2, ![1, N]⟩) (hb : (⟨2, ![1, N]⟩ : Shape).Broadcasts ⟨2, ![M, N]⟩)
    (p : Fin M) (j : Fin N) (row : Fin K → EReal) (hf : ∀ k, f (ix2 p k) = row k) :
    addf (matmul d none f (shapeCast ⟨2, ![K, N]⟩ W hW) (constant (F := Ideal) ⟨2, ![M, N]⟩ .f32 0x00000000#32))
        (broadcastTo ⟨2, ![M, N]⟩ (shapeCast ⟨2, ![1, N]⟩ b hrow) hb) (ix2 p j)
      = lin row (fun k n => W (ix2 k n)) (fun n => b (ix1 n)) j := by
  show matmul d none f (shapeCast ⟨2, ![K, N]⟩ W hW) (constant (F := Ideal) ⟨2, ![M, N]⟩ .f32 0x00000000#32) (ix2 p j)
      + broadcastTo ⟨2, ![M, N]⟩ (shapeCast ⟨2, ![1, N]⟩ b hrow) hb (ix2 p j) = _
  rw [prod_apply d hd, bias_apply]
  unfold lin
  simp only [hf]

end Generic

/-- The kernel's two dimension records are the rows-by-columns ones: they differ from them only in the proof of
    well-formedness. -/
theorem dot1_plain : dot_S512x1024_S1024x1024_S512x1024_1_0_0_1_n_n = DotDims.plain 512 1024 1024 := rfl

theorem dot2_plain : dot_S512x512_S512x1024_S512x1024_1_0_0_1_n_n = DotDims.plain 512 512 1024 := rfl

/-- The stored payload over two activated tiles `f1`, `f2` whose rows `p` are known, read at (p, j): the gated mix
    of the two rows. -/
theorem mix_apply (f1 : FVec Ideal S512x1024 .bf16) (f2 : FVec Ideal S512x512 .bf16)
    (x6 : Vec Ideal S1024x1024 .bf16) (x7 : Vec Ideal S1024 .f32) (x8 : Vec Ideal S512x1024 .bf16) (x9 : Vec Ideal S1024 .f32)
    (x10 : Vec Ideal S1024x1024 .bf16) (x11 : Vec Ideal S1024 .f32) (x12 : Vec Ideal S512x1024 .bf16)
    (x13 : Vec Ideal S1024 .f32) (p : Fin 512) (j : Fin 1024) (row1 : Fin 1024 → EReal) (row2 : Fin 512 → EReal)
    (h1 : ∀ k, f1 (ix2 p k) = row1 k) (h2 : ∀ k, f2 (ix2 p k) = row2 k) :
    k0_pay1 (F := Ideal) f2 (k0_pay6 f1 x6 x7)
        (addf (matmul dot_S512x512_S512x1024_S512x1024_1_0_0_1_n_n none f2
            (shapeCast S512x1024 x8 Gen.shapeCasts_S512x1024_S512x1024 : FVec Ideal S512x1024 .bf16) (constant (F := Ideal) S512x1024 .f32 0x00000000#32))
          (broadcastTo S512x1024 (shapeCast S1x1024 x9 Gen.shapeCasts_S1024_S1x1024) Gen.broadcasts_S1x1024_S512x1024))
        (k0_pay8 f1 x10) (k0_pay9 x11) x12 x13 (ix2 p j)
      = gated row1 row2 (fun k n => x6 (ix2 k n)) (fun n => x7 (ix1 n)) (fun k n => x8 (ix2 k n)) (fun n => x9 (ix1 n))
          (fun k n => x10 (ix2 k n)) (fun n => x11 (ix1 n)) (fun k n => x12 (ix2 k n)) (fun n => x13 (ix1 n)) j := by
  have eo1 := layer_apply (φ₁ := .bf16) (φ₂ := .bf16) _ dot1_plain f1 x6 Gen.shapeCasts_S1024x1024_S1024x1024 x7 Gen.shapeCasts_S1024_S1x1024
    Gen.broadcasts_S1x1024_S512x1024 p j row1 h1
  have eo2 := layer_apply (φ₁ := .bf16) (φ₂ := .bf16) _ dot2_plain f2 x8 Gen.shapeCasts_S512x1024_S512x1024 x9 Gen.shapeCasts_S1024_S1x1024
    Gen.broadcasts_S1x1024_S512x1024 p j row2 h2
  have eg1 := layer_apply (φ₁ := .bf16) (φ₂ := .bf16) _ dot1_plain f1 x10 Gen.shapeCasts_S1024x1024_S1024x1024 x11 Gen.shapeCasts_S1024_S1x1024
    Gen.broadcasts_S1x1024_S512x1024 p j row1 h1
  have eg2 := layer_apply (φ₁ := .bf16) (φ₂ := .bf16) _ dot2_plain f2 x12 Gen.shapeCasts_S512x1024_S512x1024 x13 Gen.shapeCasts_S1024_S1x1024
    Gen.broadcasts_S1x1024_S512x1024 p j row2 h2
  unfold gated
  rw [← eo1, ← eo2, ← eg1, ← eg2]
  rfl

/-- The offsets of the whole-tile rectangles are zero. -/
theorem off2_zero : (![0, 0] : Fin 2 → Nat) = fun _ => 0 :=
  funext fun a => by
    match a with
    | ⟨0, _⟩ => rfl
    | ⟨1, _⟩ => rfl

theorem off1_zero : (![0] : Fin 1 → Nat) = fun _ => 0 :=
  funext fun a => by
    match a with
    | ⟨0, _⟩ => rfl

/-- The output tile is one store over the whole tile, and every load reads a whole block; the two activated tiles
    read along row `p` are the normalised and rectified rows, and the stored payload is their gated mix. -/
theorem pay_eq (x0 : Vec Ideal S512x1024 .f32) (x1 : Vec Ideal S512x512 .f32) (x2 x3 : Vec Ideal S1024 .f32) (x4 x5 : Vec Ideal S512 .f32) (x6 : Vec Ideal S1024x1024 .bf16) (x7 : Vec Ideal S1024 .f32) (x8 : Vec Ideal S512x1024 .bf16) (x9 : Vec Ideal S1024 .f32) (x10 : Vec Ideal S1024x1024 .bf16) (x11 : Vec Ideal S1024 .f32) (x12 : Vec Ideal S512x1024 .bf16) (x13 : Vec Ideal S1024 .f32) (p : Fin 512) (j : Fin 1024) :
    out0_14 (F := Ideal) x0 x1 x2 x3 x4 x5 x6 x7 x8 x9 x10 x11 x12 x13 (ix2 p j)
      = rowOut (fun k => x0 (ix2 p k)) (fun k => x1 (ix2 p k)) (fun k => x2 (ix1 k)) (fun k => x3 (ix1 k))
          (fun k => x4 (ix1 k)) (fun k => x5 (ix1 k)) (fun k n => x6 (ix2 k n)) (fun n => x7 (ix1 n))
          (fun k n => x8 (ix2 k n)) (fun n => x9 (ix1 n)) (fun k n => x10 (ix2 k n)) (fun n => x11 (ix1 n))
          (fun k n => x12 (ix2 k n)) (fun n => x13 (ix1 n)) j := by
  unfold out0_14
  rw [View.canon_unit_zero off2_zero]
  simp only [View.ld_unit_zero (S := S512x1024) off2_zero, View.ld_unit_zero (S := S512x512) off2_zero,
    View.ld_unit_zero (S := S1024x1024) off2_zero, View.ld_unit_zero (S := S1024) off1_zero,
    View.ld_unit_zero (S := S512) off1_zero]
  have h1 : ∀ k, k0_pay2 (F := Ideal) x0 x2 x3 (ix2 p k)
      = normAct d1 eps slope zero (fun k' => x0 (ix2 p k')) (fun k' => x2 (ix1 k')) (fun k' => x3 (ix1 k')) k := fun k =>
    kernelNormAct_apply 0x44800000#32 0x358637BD#32 0x3C23D70A#32 0x00000000#32 Gen.reduces_S512x1024_S512
      Gen.shapeCasts_S512_S512x1 Gen.broadcasts_S512x1_S512x1024 Gen.shapeCasts_S1024_S1x1024
      Gen.broadcasts_S1x1024_S512x1024 Gen.bitsLt_bf16_f32 x0 x2 x3 p k
  have h2 : ∀ k, k0_pay5 (F := Ideal) x1 (k0_pay3 x1) (k0_pay4 x1) x4 x5 (ix2 p k)
      = normAct d2 eps slope zero (fun k' => x1 (ix2 p k')) (fun k' => x4 (ix1 k')) (fun k' => x5 (ix1 k')) k := fun k =>
    kernelNormAct_apply 0x44000000#32 0x358637BD#32 0x3C23D70A#32 0x00000000#32 Gen.reduces_S512x512_S512
      Gen.shapeCasts_S512_S512x1 Gen.broadcasts_S512x1_S512x512 Gen.shapeCasts_S512_S1x512
      Gen.broadcasts_S1x512_S512x512 Gen.bitsLt_bf16_f32 x1 x4 x5 p k
  exact mix_apply (k0_pay2 x0 x2 x3) (k0_pay5 x1 (k0_pay3 x1) (k0_pay4 x1) x4 x5) x6 x7 x8 x9 x10 x11 x12 x13 p j _ _ h1 h2

end Cert.KernelIdeal.KPay

end
-- ==== Proof.KernelArr.lean ====
/-
  From tiles to the array: grid point `t` writes rows 512·t … 512·t + 511 of the result, each entry the row function of
  that row of the inputs; the 64 tiles cover the array, so after the run the result array is `arrOut` of the arguments.
-/
import proofs.«125668_j41180146434605_1_alg».proof.Proof.Gen.KernelIdeal.Value
import proofs.«125668_j41180146434605_1_alg».proof.Proof.KernelPay

noncomputable section

namespace Cert.KernelIdeal.KArr

open Cert.KernelIdeal Cert.KernelIdeal.Gen Idealize.ShloMosaic Idealize.ShloMosaic.TcCoe Idealize.SL.Sem Idealize.ShloMosaic.ValueIdx
open Idealize.ShloMosaic.Pipeline (Dat)
open Cert.VecMerge

variable (m : (ℓ : Loc nD τ sig) → Buf (Elt Ideal) ℓ) (ρ : Dev nD → PrngReg)

/-! ## Where each window's block sits at grid point `t`

The two row-tiled inputs and the result take block `(t, 0)` at point `t`; every parameter window takes its one block. -/

/-- Window 0's block index at point `t`, decided over the 64 points. -/
theorem index0 : ∀ t : Fin cfg0.N, win0_0.index t (0 : Fin 2) = t.val ∧ win0_0.index t (1 : Fin 2) = 0 :=
  (by decide +kernel : ∀ t : Fin grid0.N, _)

/-- Window 1's block index at point `t`, decided over the 64 points. -/
theorem index1 : ∀ t : Fin cfg0.N, win0_1.index t (0 : Fin 2) = t.val ∧ win0_1.index t (1 : Fin 2) = 0 :=
  (by decide +kernel : ∀ t : Fin grid0.N, _)

/-- Window 2's block index at point `t`, decided over the 64 points. -/
theorem index2 : ∀ t : Fin cfg0.N, win0_2.index t (0 : Fin 1) = 0 :=
  (by decide +kernel : ∀ t : Fin grid0.N, _)

/-- Window 3's block index at point `t`, decided over the 64 points. -/
theorem index3 : ∀ t : Fin cfg0.N, win0_3.index t (0 : Fin 1) = 0 :=
  (by decide +kernel : ∀ t : Fin grid0.N, _)

/-- Window 4's block index at point `t`, decided over the 64 points. -/
theorem index4 : ∀ t : Fin cfg0.N, win0_4.index t (0 : Fin 1) = 0 :=
  (by decide +kernel : ∀ t : Fin grid0.N, _)

/-- Window 5's block index at point `t`, decided over the 64 points. -/
theorem index5 : ∀ t : Fin cfg0.N, win0_5.index t (0 : Fin 1) = 0 :=
  (by decide +kernel : ∀ t : Fin grid0.N, _)

/-- Window 6's block index at point `t`, decided over the 64 points. -/
theorem index6 : ∀ t : Fin cfg0.N, win0_6.index t (0 : Fin 2) = 0 ∧ win0_6.index t (1 : Fin 2) = 0 :=
  (by decide +kernel : ∀ t : Fin grid0.N, _)

/-- Window 7's block index at point `t`, decided over the 64 points. -/
theorem index7 : ∀ t : Fin cfg0.N, win0_7.index t (0 : Fin 1) = 0 :=
  (by decide +kernel : ∀ t : Fin grid0.N, _)

/-- Window 8's block index at point `t`, decided over the 64 points. -/
theorem index8 : ∀ t : Fin cfg0.N, win0_8.index t (0 : Fin 2) = 0 ∧ win0_8.index t (1 : Fin 2) = 0 :=
  (by decide +kernel : ∀ t : Fin grid0.N, _)

/-- Window 9's block index at point `t`, decided over the 64 points. -/
theorem index9 : ∀ t : Fin cfg0.N, win0_9.index t (0 : Fin 1) = 0 :=
  (by decide +kernel : ∀ t : Fin grid0.N, _)

/-- Window 10's block index at point `t`, decided over the 64 points. -/
theorem index10 : ∀ t : Fin cfg0.N, win0_10.index t (0 : Fin 2) = 0 ∧ win0_10.index t (1 : Fin 2) = 0 :=
  (by decide +kernel : ∀ t : Fin grid0.N, _)

/-- Window 11's block index at point `t`, decided over the 64 points. -/
theorem index11 : ∀ t : Fin cfg0.N, win0_11.index t (0 : Fin 1) = 0 :=
  (by decide +kernel : ∀ t : Fin grid0.N, _)

/-- Window 12's block index at point `t`, decided over the 64 points. -/
theorem index12 : ∀ t : Fin cfg0.N, win0_12.index t (0 : Fin 2) = 0 ∧ win0_12.index t (1 : Fin 2) = 0 :=
  (by decide +kernel : ∀ t : Fin grid0.N, _)

/-- Window 13's block index at point `t`, decided over the 64 points. -/
theorem index13 : ∀ t : Fin cfg0.N, win0_13.index t (0 : Fin 1) = 0 :=
  (by decide +kernel : ∀ t : Fin grid0.N, _)

/-- Window 14's block index at point `t`, decided over the 64 points. -/
theorem index14 : ∀ t : Fin cfg0.N, win0_14.index t (0 : Fin 2) = t.val ∧ win0_14.index t (1 : Fin 2) = 0 :=
  (by decide +kernel : ∀ t : Fin grid0.N, _)

/-! ## The arrays the host wrote before the region

The four weight windows stage the bf16 roundings of arguments 6, 8, 10 and 12; over the extended reals a rounding is
the identity, so each staged array is the argument itself. -/

/-- The array window 6 stages is argument `main_arg6`, entry by entry. -/
theorem staged6 (c : Dev nD) : (V m c main_v0 : S1024x1024.Idx → EReal) = m ((c : Thread nD τ).loc main_arg6) := by
  dsimp only [Gen.V, Gen.hostOps0]; after_results; rfl

/-- The array window 8 stages is argument `main_arg8`, entry by entry. -/
theorem staged8 (c : Dev nD) : (V m c main_v1 : S512x1024.Idx → EReal) = m ((c : Thread nD τ).loc main_arg8) := by
  dsimp only [Gen.V, Gen.hostOps0]; after_results; rfl

/-- The array window 10 stages is argument `main_arg10`, entry by entry. -/
theorem staged10 (c : Dev nD) : (V m c main_v2 : S1024x1024.Idx → EReal) = m ((c : Thread nD τ).loc main_arg10) := by
  dsimp only [Gen.V, Gen.hostOps0]; after_results; rfl

/-- The array window 12 stages is argument `main_arg12`, entry by entry. -/
theorem staged12 (c : Dev nD) : (V m c main_v3 : S512x1024.Idx → EReal) = m ((c : Thread nD τ).loc main_arg12) := by
  dsimp only [Gen.V, Gen.hostOps0]; after_results; rfl

/-! ## Each input block read at explicit coordinates

An entry of a block sits in its array, on each axis, at block index × block size + 1 × the coordinate inside the block. -/

/-- Entry (p, k) of window 0's block at point `t` is entry (512·t + p, k) of `main_arg0`. -/
theorem blk0 (c : Dev nD) (t : Fin cfg0.N) (p : Fin 512) (k : Fin 1024) (r : Fin 32768) (hr : r.val = 512 * t.val + p.val) :
    (iblk m c 0 t : Vec Ideal S512x1024 .f32) (ix2 p k) = m ((c : Thread nD τ).loc main_arg0) (ix2 r k) := by
  obtain ⟨e0, e1⟩ := index0 t
  rw [← V_main_arg0 m c]
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- Entry (p, k) of window 1's block at point `t` is entry (512·t + p, k) of `main_arg1`. -/
theorem blk1 (c : Dev nD) (t : Fin cfg0.N) (p : Fin 512) (k : Fin 512) (r : Fin 32768) (hr : r.val = 512 * t.val + p.val) :
    (iblk m c 1 t : Vec Ideal S512x512 .f32) (ix2 p k) = m ((c : Thread nD τ).loc main_arg1) (ix2 r k) := by
  obtain ⟨e0, e1⟩ := index1 t
  rw [← V_main_arg1 m c]
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 512 + 1 * p.val = r.val; omega
  | ⟨1, _⟩ => show win0_1.index t (1 : Fin 2) * 512 + 1 * k.val = k.val; omega

/-- Entry k of window 2's block is entry k of `main_arg2`, at every point. -/
theorem blk2 (c : Dev nD) (t : Fin cfg0.N) (k : Fin 1024) :
    (iblk m c 2 t : Vec Ideal S1024 .f32) (ix1 k) = m ((c : Thread nD τ).loc main_arg2) (ix1 k) := by
  have e0 := index2 t
  rw [← V_main_arg2 m c]
  show V m c main_arg2 (((cfg0.win 2).blk t).view.emb (ix1 k)) = V m c main_arg2 (ix1 k)
  refine congrArg _ (funext fun a => Fin.ext ?_)
  match a with
  | ⟨0, _⟩ => show win0_2.index t (0 : Fin 1) * 1024 + 1 * k.val = k.val; omega

/-- Entry k of window 3's block is entry k of `main_arg3`, at every point. -/
theorem blk3 (c : Dev nD) (t : Fin cfg0.N) (k : Fin 1024) :
    (iblk m c 3 t : Vec Ideal S1024 .f32) (ix1 k) = m ((c : Thread nD τ).loc main_arg3) (ix1 k) := by
  have e0 := index3 t
  rw [← V_main_arg3 m c]
  show V m c main_arg3 (((cfg0.win 3).blk t).view.emb (ix1 k)) = V m c main_arg3 (ix1 k)
  refine congrArg _ (funext fun a => Fin.ext ?_)
  match a with
  | ⟨0, _⟩ => show win0_3.index t (0 : Fin 1) * 1024 + 1 * k.val = k.val; omega

/-- Entry k of window 4's block is entry k of `main_arg4`, at every point. -/
theorem blk4 (c : Dev nD) (t : Fin cfg0.N) (k : Fin 512) :
    (iblk m c 4 t : Vec Ideal S512 .f32) (ix1 k) = m ((c : Thread nD τ).loc main_arg4) (ix1 k) := by
  have e0 := index4 t
  rw [← V_main_arg4 m c]
  show V m c main_arg4 (((cfg0.win 4).blk t).view.emb (ix1 k)) = V m c main_arg4 (ix1 k)
  refine congrArg _ (funext fun a => Fin.ext ?_)
  match a with
  | ⟨0, _⟩ => show win0_4.index t (0 : Fin 1) * 512 + 1 * k.val = k.val; omega

/-- Entry k of window 5's block is entry k of `main_arg5`, at every point. -/
theorem blk5 (c : Dev nD) (t : Fin cfg0.N) (k : Fin 512) :
    (iblk m c 5 t : Vec Ideal S512 .f32) (ix1 k) = m ((c : Thread nD τ).loc main_arg5) (ix1 k) := by
  have e0 := index5 t
  rw [← V_main_arg5 m c]
  show V m c main_arg5 (((cfg0.win 5).blk t).view.emb (ix1 k)) = V m c main_arg5 (ix1 k)
  refine congrArg _ (funext fun a => Fin.ext ?_)
  match a with
  | ⟨0, _⟩ => show win0_5.index t (0 : Fin 1) * 512 + 1 * k.val = k.val; omega

/-- Entry (k, n) of window 6's block is entry (k, n) of `main_arg6`, at every point. -/
theorem blk6 (c : Dev nD) (t : Fin cfg0.N) (k : Fin 1024) (n : Fin 1024) :
    (iblk m c 6 t : Vec Ideal S1024x1024 .bf16) (ix2 k n) = m ((c : Thread nD τ).loc main_arg6) (ix2 k n) := by
  obtain ⟨e0, e1⟩ := index6 t
  refine Eq.trans ?_ (congrFun (staged6 m c) _)
  show V m c main_v0 (((cfg0.win 6).blk t).view.emb (ix2 k n)) = V m c main_v0 (ix2 k n)
  refine congrArg _ (funext fun a => Fin.ext ?_)
  match a with
  | ⟨0, _⟩ => show win0_6.index t (0 : Fin 2) * 1024 + 1 * k.val = k.val; omega
  | ⟨1, _⟩ => show win0_6.index t (1 : Fin 2) * 1024 + 1 * n.val = n.val; omega

/-- Entry k of window 7's block is entry k of `main_arg7`, at every point. -/
theorem blk7 (c : Dev nD) (t : Fin cfg0.N) (k : Fin 1024) :
    (iblk m c 7 t : Vec Ideal S1024 .f32) (ix1 k) = m ((c : Thread nD τ).loc main_arg7) (ix1 k) := by
  have e0 := index7 t
  rw [← V_main_arg7 m c]
  show V m c main_arg7 (((cfg0.win 7).blk t).view.emb (ix1 k)) = V m c main_arg7 (ix1 k)
  refine congrArg _ (funext fun a => Fin.ext ?_)
  match a with
  | ⟨0, _⟩ => show win0_7.index t (0 : Fin 1) * 1024 + 1 * k.val = k.val; omega

/-- Entry (k, n) of window 8's block is entry (k, n) of `main_arg8`, at every point. -/
theorem blk8 (c : Dev nD) (t : Fin cfg0.N) (k : Fin 512) (n : Fin 1024) :
    (iblk m c 8 t : Vec Ideal S512x1024 .bf16) (ix2 k n) = m ((c : Thread nD τ).loc main_arg8) (ix2 k n) := by
  obtain ⟨e0, e1⟩ := index8 t
  refine Eq.trans ?_ (congrFun (staged8 m c) _)
  show V m c main_v1 (((cfg0.win 8).blk t).view.emb (ix2 k n)) = V m c main_v1 (ix2 k n)
  refine congrArg _ (funext fun a => Fin.ext ?_)
  match a with
  | ⟨0, _⟩ => show win0_8.index t (0 : Fin 2) * 512 + 1 * k.val = k.val; omega
  | ⟨1, _⟩ => show win0_8.index t (1 : Fin 2) * 1024 + 1 * n.val = n.val; omega

/-- Entry k of window 9's block is entry k of `main_arg9`, at every point. -/
theorem blk9 (c : Dev nD) (t : Fin cfg0.N) (k : Fin 1024) :
    (iblk m c 9 t : Vec Ideal S1024 .f32) (ix1 k) = m ((c : Thread nD τ).loc main_arg9) (ix1 k) := by
  have e0 := index9 t
  rw [← V_main_arg9 m c]
  show V m c main_arg9 (((cfg0.win 9).blk t).view.emb (ix1 k)) = V m c main_arg9 (ix1 k)
  refine congrArg _ (funext fun a => Fin.ext ?_)
  match a with
  | ⟨0, _⟩ => show win0_9.index t (0 : Fin 1) * 1024 + 1 * k.val = k.val; omega

/-- Entry (k, n) of window 10's block is entry (k, n) of `main_arg10`, at every point. -/
theorem blk10 (c : Dev nD) (t : Fin cfg0.N) (k : Fin 1024) (n : Fin 1024) :
    (iblk m c 10 t : Vec Ideal S1024x1024 .bf16) (ix2 k n) = m ((c : Thread nD τ).loc main_arg10) (ix2 k n) := by
  obtain ⟨e0, e1⟩ := index10 t
  refine Eq.trans ?_ (congrFun (staged10 m c) _)
  show V m c main_v2 (((cfg0.win 10).blk t).view.emb (ix2 k n)) = V m c main_v2 (ix2 k n)
  refine congrArg _ (funext fun a => Fin.ext ?_)
  match a with
  | ⟨0, _⟩ => show win0_10.index t (0 : Fin 2) * 1024 + 1 * k.val = k.val; omega
  | ⟨1, _⟩ => show win0_10.index t (1 : Fin 2) * 1024 + 1 * n.val = n.val; omega

/-- Entry k of window 11's block is entry k of `main_arg11`, at every point. -/
theorem blk11 (c : Dev nD) (t : Fin cfg0.N) (k : Fin 1024) :
    (iblk m c 11 t : Vec Ideal S1024 .f32) (ix1 k) = m ((c : Thread nD τ).loc main_arg11) (ix1 k) := by
  have e0 := index11 t
  rw [← V_main_arg11 m c]
  show V m c main_arg11 (((cfg0.win 11).blk t).view.emb (ix1 k)) = V m c main_arg11 (ix1 k)
  refine congrArg _ (funext fun a => Fin.ext ?_)
  match a with
  | ⟨0, _⟩ => show win0_11.index t (0 : Fin 1) * 1024 + 1 * k.val = k.val; omega

/-- Entry (k, n) of window 12's block is entry (k, n) of `main_arg12`, at every point. -/
theorem blk12 (c : Dev nD) (t : Fin cfg0.N) (k : Fin 512) (n : Fin 1024) :
    (iblk m c 12 t : Vec Ideal S512x1024 .bf16) (ix2 k n) = m ((c : Thread nD τ).loc main_arg12) (ix2 k n) := by
  obtain ⟨e0, e1⟩ := index12 t
  refine Eq.trans ?_ (congrFun (staged12 m c) _)
  show V m c main_v3 (((cfg0.win 12).blk t).view.emb (ix2 k n)) = V m c main_v3 (ix2 k n)
  refine congrArg _ (funext fun a => Fin.ext ?_)
  match a with
  | ⟨0, _⟩ => show win0_12.index t (0 : Fin 2) * 512 + 1 * k.val = k.val; omega
  | ⟨1, _⟩ => show win0_12.index t (1 : Fin 2) * 1024 + 1 * n.val = n.val; omega

/-- Entry k of window 13's block is entry k of `main_arg13`, at every point. -/
theorem blk13 (c : Dev nD) (t : Fin cfg0.N) (k : Fin 1024) :
    (iblk m c 13 t : Vec Ideal S1024 .f32) (ix1 k) = m ((c : Thread nD τ).loc main_arg13) (ix1 k) := by
  have e0 := index13 t
  rw [← V_main_arg13 m c]
  show V m c main_arg13 (((cfg0.win 13).blk t).view.emb (ix1 k)) = V m c main_arg13 (ix1 k)
  refine congrArg _ (funext fun a => Fin.ext ?_)
  match a with
  | ⟨0, _⟩ => show win0_13.index t (0 : Fin 1) * 1024 + 1 * k.val = k.val; omega

/-! ## From tiles to the array -/

/-- The result array as one function of the fourteen argument arrays. -/
abbrev G (c : Dev nD) : S32768x1024.Idx → EReal :=
  arrOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What point `t` writes back is block `t` of `G`: entry (p, j) of the tile is the row function of row p of the two
    input tiles, which are rows 512·t + p of the two inputs, and entry (512·t + p, j) of `G` is the row function of
    those rows. -/
theorem flushed_eq (c : Dev nD) (t : Fin cfg0.N) :
    (dats m 0 c).flushed 14 t = ((cfg0.win 14).blk t).view.read (Elt Ideal) (G m c) := by
  rw [Value.flushed14]
  funext y
  obtain ⟨p, j, rfl⟩ : ∃ (p : Fin 512) (j : Fin 1024), y = ix2 p j := ⟨y 0, y 1, eq_ix2 y⟩
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j)
    = G m c (((cfg0.win 14).blk t).view.emb (ix2 p j))
  have hN : cfg0.N = 64 := N_0
  have ht : t.val < cfg0.N := t.isLt
  obtain ⟨r, hr⟩ : ∃ r : Fin 32768, r.val = 512 * t.val + p.val := ⟨⟨512 * t.val + p.val, by omega⟩, rfl⟩
  have hemb : ((cfg0.win 14).blk t).view.emb (ix2 p j) = ix2 r j := by
    obtain ⟨e0, e1⟩ := index14 t
    funext a; apply Fin.ext
    match a with
    | ⟨0, _⟩ => show win0_14.index t (0 : Fin 2) * 512 + 1 * p.val = r.val; omega
    | ⟨1, _⟩ => show win0_14.index t (1 : Fin 2) * 1024 + 1 * j.val = j.val; omega
  rw [hemb]
  refine (KPay.pay_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  refine Eq.trans ?_ (arrOut_ix2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) r j).symm
  have h0 : (fun k : Fin 1024 => (iblk m c 0 t : Vec Ideal S512x1024 .f32) (ix2 p k)) = fun k => m ((c : Thread nD τ).loc main_arg0) (ix2 r k) :=
    funext fun k => blk0 m c t p k r hr
  have h1 : (fun k : Fin 512 => (iblk m c 1 t : Vec Ideal S512x512 .f32) (ix2 p k)) = fun k => m ((c : Thread nD τ).loc main_arg1) (ix2 r k) :=
    funext fun k => blk1 m c t p k r hr
  have h2 : (fun k : Fin 1024 => (iblk m c 2 t : Vec Ideal S1024 .f32) (ix1 k)) = fun k => m ((c : Thread nD τ).loc main_arg2) (ix1 k) :=
    funext fun k => blk2 m c t k
  have h3 : (fun k : Fin 1024 => (iblk m c 3 t : Vec Ideal S1024 .f32) (ix1 k)) = fun k => m ((c : Thread nD τ).loc main_arg3) (ix1 k) :=
    funext fun k => blk3 m c t k
  have h4 : (fun k : Fin 512 => (iblk m c 4 t : Vec Ideal S512 .f32) (ix1 k)) = fun k => m ((c : Thread nD τ).loc main_arg4) (ix1 k) :=
    funext fun k => blk4 m c t k
  have h5 : (fun k : Fin 512 => (iblk m c 5 t : Vec Ideal S512 .f32) (ix1 k)) = fun k => m ((c : Thread nD τ).loc main_arg5) (ix1 k) :=
    funext fun k => blk5 m c t k
  have h6 : (fun (k : Fin 1024) (n : Fin 1024) => (iblk m c 6 t : Vec Ideal S1024x1024 .bf16) (ix2 k n)) = fun k n => m ((c : Thread nD τ).loc main_arg6) (ix2 k n) :=
    funext fun k => funext fun n => blk6 m c t k n
  have h7 : (fun k : Fin 1024 => (iblk m c 7 t : Vec Ideal S1024 .f32) (ix1 k)) = fun k => m ((c : Thread nD τ).loc main_arg7) (ix1 k) :=
    funext fun k => blk7 m c t k
  have h8 : (fun (k : Fin 512) (n : Fin 1024) => (iblk m c 8 t : Vec Ideal S512x1024 .bf16) (ix2 k n)) = fun k n => m ((c : Thread nD τ).loc main_arg8) (ix2 k n) :=
    funext fun k => funext fun n => blk8 m c t k n
  have h9 : (fun k : Fin 1024 => (iblk m c 9 t : Vec Ideal S1024 .f32) (ix1 k)) = fun k => m ((c : Thread nD τ).loc main_arg9) (ix1 k) :=
    funext fun k => blk9 m c t k
  have h10 : (fun (k : Fin 1024) (n : Fin 1024) => (iblk m c 10 t : Vec Ideal S1024x1024 .bf16) (ix2 k n)) = fun k n => m ((c : Thread nD τ).loc main_arg10) (ix2 k n) :=
    funext fun k => funext fun n => blk10 m c t k n
  have h11 : (fun k : Fin 1024 => (iblk m c 11 t : Vec Ideal S1024 .f32) (ix1 k)) = fun k => m ((c : Thread nD τ).loc main_arg11) (ix1 k) :=
    funext fun k => blk11 m c t k
  have h12 : (fun (k : Fin 512) (n : Fin 1024) => (iblk m c 12 t : Vec Ideal S512x1024 .bf16) (ix2 k n)) = fun k n => m ((c : Thread nD τ).loc main_arg12) (ix2 k n) :=
    funext fun k => funext fun n => blk12 m c t k n
  have h13 : (fun k : Fin 1024 => (iblk m c 13 t : Vec Ideal S1024 .f32) (ix1 k)) = fun k => m ((c : Thread nD τ).loc main_arg13) (ix1 k) :=
    funext fun k => blk13 m c t k
  rw [h0, h1, h2, h3, h4, h5, h6, h7, h8, h9, h10, h11, h12, h13]

/-- An index of the result is in point `t`'s block iff each coordinate is in the block's range on its axis. -/
theorem mem_blk (t : Fin cfg0.N) (i : S32768x1024.Idx) :
    i ∈ ((cfg0.win 14).blk t).view.set ↔ ∀ a : Fin 2, win0_14.index t a * S512x1024.size a ≤ (i a).val ∧ (i a).val < win0_14.index t a * S512x1024.size a + S512x1024.size a := by
  show i ∈ ((View.whole main_v4).slice (win0_14.rect t)).set ↔ _
  rw [View.set_slice_whole, Rect.mem_set_unit]
  exact Iff.rfl

/-- The 64 tiles cover the result: row r lies in the tile of point r / 512. -/
theorem cover (i : S32768x1024.Idx) :
    ∃ t : Fin cfg0.N, (cfg0.win 14).flush t = true ∧ i ∈ ((cfg0.win 14).blk t).view.set := by
  have hN : cfg0.N = 64 := N_0
  have hi0 : (i 0).val < 32768 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨e0, e1⟩ := index14 t
  refine ⟨t, flush0_14 t, ?_⟩
  rw [mem_blk]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 1024 ≤ (i 1).val ∧ (i 1).val < win0_14.index t (1 : Fin 2) * 1024 + 1024; omega

/-- So after the run the result array is `G`. -/
theorem final (c : Dev nD) : (dats m 0 c).arrAt 14 cfg0.N = G m c :=
  (dats m 0 c).arrAt_eq_of_cover 14 (G m c) (fun t _ => flushed_eq m c t) cover

/-! ## The run, read -/

/-- The run with the result array at `arrOut` of the arguments, the arguments unchanged. -/
theorem run : θ_run defs (onTc (τ := τ) (main (F := Ideal))) ⟨m, fun _ => 0, ρ⟩ fun r => ∀ c : Dev nD,
      r.2.mem ((c : Thread nD τ).loc main_v4) = arrOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.KArr

end
-- ==== Proof.RefTerm.lean ====
/-
  The reference's result as one term of its fourteen arguments: each stream normalised and rectified on all rows, four
  dense layers (a matrix product plus a bias row laid along every row), the gate as one over one plus the exponential
  of the negated sum of the two gate layers, times the sum of the two output layers.
-/
import proofs.«125668_j41180146434605_1_alg».proof.ReferenceIdeal
import proofs.«125668_j41180146434605_1_alg».proof.Proof.LibRowNorm

noncomputable section

namespace Cert.ReferenceIdeal.RefTerm

open Idealize.ShloMosaic Cert.ReferenceIdeal Cert.ReferenceIdeal.Facts₀ Cert.LibRowNorm

variable {F : FTy → Type} [FloatOps F] [Cert.ReferenceIdeal.Facts]

/-- Stream 1 (rows of 1024): normalised and rectified. -/
def act1 (x : FVec F S32768x1024 .f32) (s b : FVec F S1024 .f32) : FVec F S32768x1024 .f32 :=
  hostNormAct 0x44800000#32 0x358637BD#32 0x3C23D70A#32 0x00000000#32 reducesTo_S32768x1024_S32768_d1 h_S_
    bcast_S32768_S32768x1_0 bcast_S_S32768x1 bcast_S32768x1_S32768x1024_0_1 bcast_S1024_S1x1024_1
    bcast_S1x1024_S32768x1024_0_1 bcast_S_S32768x1024 x s b

/-- Stream 2 (rows of 512): normalised and rectified. -/
def act2 (x : FVec F S32768x512 .f32) (s b : FVec F S512 .f32) : FVec F S32768x512 .f32 :=
  hostNormAct 0x44000000#32 0x358637BD#32 0x3C23D70A#32 0x00000000#32 reducesTo_S32768x512_S32768_d1 h_S_
    bcast_S32768_S32768x1_0 bcast_S_S32768x1 bcast_S32768x1_S32768x512_0_1 bcast_S512_S1x512_1
    bcast_S1x512_S32768x512_0_1 bcast_S_S32768x512 x s b

/-- A dense layer on stream 1's activations: the product with a 1024 × 1024 matrix plus a bias row. -/
def dense1 (h : FVec F S32768x1024 .f32) (W : FVec F S1024x1024 .f32) (b : FVec F S1024 .f32) : FVec F S32768x1024 .f32 :=
  addf (Host.dotGeneral dot_S32768x1024_S1024x1024_S32768x1024_1_0_0_1_n_n none h W)
    (broadcastInDim S32768x1024 ![0, 1] bcast_S1x1024_S32768x1024_0_1 (broadcastInDim S1x1024 ![1] bcast_S1024_S1x1024_1 b))

/-- A dense layer on stream 2's activations: the product with a 512 × 1024 matrix plus a bias row. -/
def dense2 (h : FVec F S32768x512 .f32) (W : FVec F S512x1024 .f32) (b : FVec F S1024 .f32) : FVec F S32768x1024 .f32 :=
  addf (Host.dotGeneral dot_S32768x512_S512x1024_S32768x1024_1_0_0_1_n_n none h W)
    (broadcastInDim S32768x1024 ![0, 1] bcast_S1x1024_S32768x1024_0_1 (broadcastInDim S1x1024 ![1] bcast_S1024_S1x1024_1 b))

/-- The gate: one over (one plus the exponential of the negated argument), in the host's operations. -/
def gate (g : FVec F S32768x1024 .f32) : FVec F S32768x1024 .f32 :=
  Host.divf (broadcastInDim S32768x1024 ![] bcast_S_S32768x1024 (constant S_ .f32 0x3F800000#32))
    (addf (broadcastInDim S32768x1024 ![] bcast_S_S32768x1024 (constant S_ .f32 0x3F800000#32)) (Host.exp (Host.negf g)))

/-- The reference's result of its fourteen arguments, in their order. -/
def refOut (a0 : FVec F S32768x1024 .f32) (a1 : FVec F S32768x512 .f32) (a2 a3 : FVec F S1024 .f32) (a4 a5 : FVec F S512 .f32)
    (a6 : FVec F S1024x1024 .f32) (a7 : FVec F S1024 .f32) (a8 : FVec F S512x1024 .f32) (a9 : FVec F S1024 .f32)
    (a10 : FVec F S1024x1024 .f32) (a11 : FVec F S1024 .f32) (a12 : FVec F S512x1024 .f32) (a13 : FVec F S1024 .f32) :
    FVec F S32768x1024 .f32 :=
  mulf (gate (addf (dense1 (act1 a0 a2 a3) a10 a11) (dense2 (act2 a1 a4 a5) a12 a13)))
    (addf (dense1 (act1 a0 a2 a3) a6 a7) (dense2 (act2 a1 a4 a5) a8 a9))

end Cert.ReferenceIdeal.RefTerm

end
-- ==== Proof.RefOps.lean ====
import proofs.«125668_j41180146434605_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The 66 operations of @main's first window, in order: stream 1's normalisation, its rectifier (the callee's six
    operations and the select of the callee's callee, over the call's buffers), stream 2's normalisation. -/
abbrev ops0 : List (HloOp τ sig (Elt F)) :=
  [ StableHlo.nullary main_cst (constant S_ .f32 0x00000000#32),
    StableHlo.binary main_arg0 main_cst main_v0 ((fun x v => Host.reduceAdd x v Facts₀.reducesTo_S32768x1024_S32768_d1 Facts₀.h_S_) : (⟨S32768x1024, .f32⟩ : BufTy).Contents (Elt F) → (⟨S_, .f32⟩ : BufTy).Contents (Elt F) → (⟨S32768, .f32⟩ : BufTy).Contents (Elt F)),
    StableHlo.unary main_v0 main_v1 (broadcastInDim S32768x1 ![0] Facts₀.bcast_S32768_S32768x1_0 : (⟨S32768, .f32⟩ : BufTy).Contents (Elt F) → (⟨S32768x1, .f32⟩ : BufTy).Contents (Elt F)),
    StableHlo.nullary main_cst_0 (constant S_ .f32 0x44800000#32),
    StableHlo.unary main_cst_0 main_v2 (broadcastInDim S32768x1 ![] Facts₀.bcast_S_S32768x1 : (⟨S_, .f32⟩ : BufTy).Contents (Elt F) → (⟨S32768x1, .f32⟩ : BufTy).Contents (Elt F)),
    StableHlo.binary main_v1 main_v2 main_v3 (Host.divf : (⟨S32768x1, .f32⟩ : BufTy).Contents (Elt F) → (⟨S32768x1, .f32⟩ : BufTy).Contents (Elt F) → (⟨S32768x1, .f32⟩ : BufTy).Contents (Elt F)),
    StableHlo.unary main_v3 main_v4 (broadcastInDim S32768x1024 ![0, 1] Facts₀.bcast_S32768x1_S32768x1024_0_1 : (⟨S32768x1, .f32⟩ : BufTy).Contents (Elt F) → (⟨S32768x1024, .f32⟩ : BufTy).Contents (Elt F)),
    StableHlo.binary main_arg0 main_v4 main_v5 (subf : (⟨S32768x1024, .f32⟩ : BufTy).Contents (Elt F) → (⟨S32768x1024, .f32⟩ : BufTy).Contents (Elt F) → (⟨S32768x1024, .f32⟩ : BufTy).Contents (Elt F)),
    StableHlo.binary main_v5 main_v5 main_v6 (mulf : (⟨S32768x1024, .f32⟩ : BufTy).Contents (Elt F) → (⟨S32768x1024, .f32⟩ : BufTy).Contents (Elt F) → (⟨S32768x1024, .f32⟩ : BufTy).Contents (Elt F)),
    StableHlo.nullary main_cst_1 (constant S_ .f32 0x00000000#32),
    StableHlo.binary main_v6 main_cst_1 main_v7 ((fun x v => Host.reduceAdd x v Facts₀.reducesTo_S32768x1024_S32768_d1 Facts₀.h_S_) : (⟨S32768x1024, .f32⟩ : BufTy).Contents (Elt F) → (⟨S_, .f32⟩ : BufTy).Contents (Elt F) → (⟨S32768, .f32⟩ : BufTy).Contents (Elt F)),
    StableHlo.unary main_v7 main_v8 (broadcastInDim S32768x1 ![0] Facts₀.bcast_S32768_S32768x1_0 : (⟨S32768, .f32⟩ : BufTy).Contents (Elt F) → (⟨S32768x1, .f32⟩ : BufTy).Contents (Elt F)),
    StableHlo.nullary main_cst_2 (constant S_ .f32 0x44800000#32),
    StableHlo.unary main_cst_2 main_v9 (broadcastInDim S32768x1 ![] Facts₀.bcast_S_S32768x1 : (⟨S_, .f32⟩ : BufTy).Contents (Elt F) → (⟨S32768x1, .f32⟩ : BufTy).Contents (Elt F)),
    StableHlo.binary main_v8 main_v9 main_v10 (Host.divf : (⟨S32768x1, .f32⟩ : BufTy).Contents (Elt F) → (⟨S32768x1, .f32⟩ : BufTy).Contents (Elt F) → (⟨S32768x1, .f32⟩ : BufTy).Contents (Elt F)),
    StableHlo.unary main_v3 main_v11 (broadcastInDim S32768x1024 ![0, 1] Facts₀.bcast_S32768x1_S32768x1024_0_1 : (⟨S32768x1, .f32⟩ : BufTy).Contents (Elt F) → (⟨S32768x1024, .f32⟩ : BufTy).Contents (Elt F)),
    StableHlo.binary main_arg0 main_v11 main_v12 (subf : (⟨S32768x1024, .f32⟩ : BufTy).Contents (Elt F) → (⟨S32768x1024, .f32⟩ : BufTy).Contents (Elt F) → (⟨S32768x1024, .f32⟩ : BufTy).Contents (Elt F)),
    StableHlo.nullary main_cst_3 (constant S_ .f32 0x358637BD#32),
    StableHlo.unary main_cst_3 main_v13 (broadcastInDim S32768x1 ![] Facts₀.bcast_S_S32768x1 : (⟨S_, .f32⟩ : BufTy).Contents (Elt F) → (⟨S32768x1, .f32⟩ : BufTy).Contents (Elt F)),
    StableHlo.binary main_v10 main_v13 main_v14 (addf : (⟨S32768x1, .f32⟩ : BufTy).Contents (Elt F) → (⟨S32768x1, .f32⟩ : BufTy).Contents (Elt F) → (⟨S32768x1, .f32⟩ : BufTy).Contents (Elt F)),
    StableHlo.unary main_v14 main_v15 (Host.rsqrt : (⟨S32768x1, .f32⟩ : BufTy).Contents (Elt F) → (⟨S32768x1, .f32⟩ : BufTy).Contents (Elt F)),
    StableHlo.unary main_v15 main_v16 (broadcastInDim S32768x1024 ![0, 1] Facts₀.bcast_S32768x1_S32768x1024_0_1 : (⟨S32768x1, .f32⟩ : BufTy).Contents (Elt F) → (⟨S32768x1024, .f32⟩ : BufTy).Contents (Elt F)),
    StableHlo.binary main_v12 main_v16 main_v17 (mulf : (⟨S32768x1024, .f32⟩ : BufTy).Contents (Elt F) → (⟨S32768x1024, .f32⟩ : BufTy).Contents (Elt F) → (⟨S32768x1024, .f32⟩ : BufTy).Contents (Elt F)),
    StableHlo.unary main_arg2 main_v18 (broadcastInDim S1x1024 ![1] Facts₀.bcast_S1024_S1x1024_1 : (⟨S1024, .f32⟩ : BufTy).Contents (Elt F) → (⟨S1x1024, .f32⟩ : BufTy).Contents (Elt F)),
    StableHlo.unary main_v18 main_v19 (broadcastInDim S32768x1024 ![0, 1] Facts₀.bcast_S1x1024_S32768x1024_0_1 : (⟨S1x1024, .f32⟩ : BufTy).Contents (Elt F) → (⟨S32768x1024, .f32⟩ : BufTy).Contents (Elt F)),
    StableHlo.binary main_v17 main_v19 main_v20 (mulf : (⟨S32768x1024, .f32⟩ : BufTy).Contents (Elt F) → (⟨S32768x1024, .f32⟩ : BufTy).Contents (Elt F) → (⟨S32768x1024, .f32⟩ : BufTy).Contents (Elt F)),
    StableHlo.unary main_arg3 main_v21 (broadcastInDim S1x1024 ![1] Facts₀.bcast_S1024_S1x1024_1 : (⟨S1024, .f32⟩ : BufTy).Contents (Elt F) → (⟨S1x1024, .f32⟩ : BufTy).Contents (Elt F)),
    StableHlo.unary main_v21 main_v22 (broadcastInDim S32768x1024 ![0, 1] Facts₀.bcast_S1x1024_S32768x1024_0_1 : (⟨S1x1024, .f32⟩ : BufTy).Contents (Elt F) → (⟨S32768x1024, .f32⟩ : BufTy).Contents (Elt F)),
    StableHlo.binary main_v20 main_v22 main_v23 (addf : (⟨S32768x1024, .f32⟩ : BufTy).Contents (Elt F) → (⟨S32768x1024, .f32⟩ : BufTy).Contents (Elt F) → (⟨S32768x1024, .f32⟩ : BufTy).Contents (Elt F)),
    StableHlo.nullary main_cst_4 (constant S_ .f32 0x3C23D70A#32),
    StableHlo.TRef.nullary main_call0.cst (constant S_ .f32 0x00000000#32),
    StableHlo.TRef.unary main_call0.cst main_call0.v0 (broadcastInDim S32768x1024 ![] Facts₀.bcast_S_S32768x1024),
    StableHlo.TRef.binary (.of main_v23 : StableHlo.TRef sig ⟨S32768x1024, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S32768x1024 ![] Facts₀.bcast_S_S32768x1024),
    StableHlo.TRef.binary main_call0.v3 (.of main_v23 : StableHlo.TRef sig ⟨S32768x1024, .f32⟩) main_call0.v4 mulf,
    StableHlo.TRef.ternary main_call0.v1 (.of main_v23 : StableHlo.TRef sig ⟨S32768x1024, .f32⟩) main_call0.v4 main_call0.call0.v0 select,
    StableHlo.nullary main_cst_5 (constant S_ .f32 0x00000000#32),
    StableHlo.binary main_arg1 main_cst_5 main_v25 ((fun x v => Host.reduceAdd x v Facts₀.reducesTo_S32768x512_S32768_d1 Facts₀.h_S_) : (⟨S32768x512, .f32⟩ : BufTy).Contents (Elt F) → (⟨S_, .f32⟩ : BufTy).Contents (Elt F) → (⟨S32768, .f32⟩ : BufTy).Contents (Elt F)),
    StableHlo.unary main_v25 main_v26 (broadcastInDim S32768x1 ![0] Facts₀.bcast_S32768_S32768x1_0 : (⟨S32768, .f32⟩ : BufTy).Contents (Elt F) → (⟨S32768x1, .f32⟩ : BufTy).Contents (Elt F)),
    StableHlo.nullary main_cst_6 (constant S_ .f32 0x44000000#32),
    StableHlo.unary main_cst_6 main_v27 (broadcastInDim S32768x1 ![] Facts₀.bcast_S_S32768x1 : (⟨S_, .f32⟩ : BufTy).Contents (Elt F) → (⟨S32768x1, .f32⟩ : BufTy).Contents (Elt F)),
    StableHlo.binary main_v26 main_v27 main_v28 (Host.divf : (⟨S32768x1, .f32⟩ : BufTy).Contents (Elt F) → (⟨S32768x1, .f32⟩ : BufTy).Contents (Elt F) → (⟨S32768x1, .f32⟩ : BufTy).Contents (Elt F)),
    StableHlo.unary main_v28 main_v29 (broadcastInDim S32768x512 ![0, 1] Facts₀.bcast_S32768x1_S32768x512_0_1 : (⟨S32768x1, .f32⟩ : BufTy).Contents (Elt F) → (⟨S32768x512, .f32⟩ : BufTy).Contents (Elt F)),
    StableHlo.binary main_arg1 main_v29 main_v30 (subf : (⟨S32768x512, .f32⟩ : BufTy).Contents (Elt F) → (⟨S32768x512, .f32⟩ : BufTy).Contents (Elt F) → (⟨S32768x512, .f32⟩ : BufTy).Contents (Elt F)),
    StableHlo.binary main_v30 main_v30 main_v31 (mulf : (⟨S32768x512, .f32⟩ : BufTy).Contents (Elt F) → (⟨S32768x512, .f32⟩ : BufTy).Contents (Elt F) → (⟨S32768x512, .f32⟩ : BufTy).Contents (Elt F)),
    StableHlo.nullary main_cst_7 (constant S_ .f32 0x00000000#32),
    StableHlo.binary main_v31 main_cst_7 main_v32 ((fun x v => Host.reduceAdd x v Facts₀.reducesTo_S32768x512_S32768_d1 Facts₀.h_S_) : (⟨S32768x512, .f32⟩ : BufTy).Contents (Elt F) → (⟨S_, .f32⟩ : BufTy).Contents (Elt F) → (⟨S32768, .f32⟩ : BufTy).Contents (Elt F)),
    StableHlo.unary main_v32 main_v33 (broadcastInDim S32768x1 ![0] Facts₀.bcast_S32768_S32768x1_0 : (⟨S32768, .f32⟩ : BufTy).Contents (Elt F) → (⟨S32768x1, .f32⟩ : BufTy).Contents (Elt F)),
    StableHlo.nullary main_cst_8 (constant S_ .f32 0x44000000#32),
    StableHlo.unary main_cst_8 main_v34 (broadcastInDim S32768x1 ![] Facts₀.bcast_S_S32768x1 : (⟨S_, .f32⟩ : BufTy).Contents (Elt F) → (⟨S32768x1, .f32⟩ : BufTy).Contents (Elt F)),
    StableHlo.binary main_v33 main_v34 main_v35 (Host.divf : (⟨S32768x1, .f32⟩ : BufTy).Contents (Elt F) → (⟨S32768x1, .f32⟩ : BufTy).Contents (Elt F) → (⟨S32768x1, .f32⟩ : BufTy).Contents (Elt F)),
    StableHlo.unary main_v28 main_v36 (broadcastInDim S32768x512 ![0, 1] Facts₀.bcast_S32768x1_S32768x512_0_1 : (⟨S32768x1, .f32⟩ : BufTy).Contents (Elt F) → (⟨S32768x512, .f32⟩ : BufTy).Contents (Elt F)),
    StableHlo.binary main_arg1 main_v36 main_v37 (subf : (⟨S32768x512, .f32⟩ : BufTy).Contents (Elt F) → (⟨S32768x512, .f32⟩ : BufTy).Contents (Elt F) → (⟨S32768x512, .f32⟩ : BufTy).Contents (Elt F)),
    StableHlo.nullary main_cst_9 (constant S_ .f32 0x358637BD#32),
    StableHlo.unary main_cst_9 main_v38 (broadcastInDim S32768x1 ![] Facts₀.bcast_S_S32768x1 : (⟨S_, .f32⟩ : BufTy).Contents (Elt F) → (⟨S32768x1, .f32⟩ : BufTy).Contents (Elt F)),
    StableHlo.binary main_v35 main_v38 main_v39 (addf : (⟨S32768x1, .f32⟩ : BufTy).Contents (Elt F) → (⟨S32768x1, .f32⟩ : BufTy).Contents (Elt F) → (⟨S32768x1, .f32⟩ : BufTy).Contents (Elt F)),
    StableHlo.unary main_v39 main_v40 (Host.rsqrt : (⟨S32768x1, .f32⟩ : BufTy).Contents (Elt F) → (⟨S32768x1, .f32⟩ : BufTy).Contents (Elt F)),
    StableHlo.unary main_v40 main_v41 (broadcastInDim S32768x512 ![0, 1] Facts₀.bcast_S32768x1_S32768x512_0_1 : (⟨S32768x1, .f32⟩ : BufTy).Contents (Elt F) → (⟨S32768x512, .f32⟩ : BufTy).Contents (Elt F)),
    StableHlo.binary main_v37 main_v41 main_v42 (mulf : (⟨S32768x512, .f32⟩ : BufTy).Contents (Elt F) → (⟨S32768x512, .f32⟩ : BufTy).Contents (Elt F) → (⟨S32768x512, .f32⟩ : BufTy).Contents (Elt F)),
    StableHlo.unary main_arg4 main_v43 (broadcastInDim S1x512 ![1] Facts₀.bcast_S512_S1x512_1 : (⟨S512, .f32⟩ : BufTy).Contents (Elt F) → (⟨S1x512, .f32⟩ : BufTy).Contents (Elt F)),
    StableHlo.unary main_v43 main_v44 (broadcastInDim S32768x512 ![0, 1] Facts₀.bcast_S1x512_S32768x512_0_1 : (⟨S1x512, .f32⟩ : BufTy).Contents (Elt F) → (⟨S32768x512, .f32⟩ : BufTy).Contents (Elt F)),
    StableHlo.binary main_v42 main_v44 main_v45 (mulf : (⟨S32768x512, .f32⟩ : BufTy).Contents (Elt F) → (⟨S32768x512, .f32⟩ : BufTy).Contents (Elt F) → (⟨S32768x512, .f32⟩ : BufTy).Contents (Elt F)),
    StableHlo.unary main_arg5 main_v46 (broadcastInDim S1x512 ![1] Facts₀.bcast_S512_S1x512_1 : (⟨S512, .f32⟩ : BufTy).Contents (Elt F) → (⟨S1x512, .f32⟩ : BufTy).Contents (Elt F)),
    StableHlo.unary main_v46 main_v47 (broadcastInDim S32768x512 ![0, 1] Facts₀.bcast_S1x512_S32768x512_0_1 : (⟨S1x512, .f32⟩ : BufTy).Contents (Elt F) → (⟨S32768x512, .f32⟩ : BufTy).Contents (Elt F)),
    StableHlo.binary main_v45 main_v47 main_v48 (addf : (⟨S32768x512, .f32⟩ : BufTy).Contents (Elt F) → (⟨S32768x512, .f32⟩ : BufTy).Contents (Elt F) → (⟨S32768x512, .f32⟩ : BufTy).Contents (Elt F)) ]

/-- The 35 operations of @main's second window, in order: stream 2's rectifier (the same seven operations at its
    shape), the four dense layers, the gate, the product. -/
abbrev ops1 : List (HloOp τ sig (Elt F)) :=
  [ StableHlo.nullary main_cst_10 (constant S_ .f32 0x3C23D70A#32),
    StableHlo.TRef.nullary main_call1.cst (constant S_ .f32 0x00000000#32),
    StableHlo.TRef.unary main_call1.cst main_call1.v0 (broadcastInDim S32768x512 ![] Facts₀.bcast_S_S32768x512),
    StableHlo.TRef.binary (.of main_v48 : StableHlo.TRef sig ⟨S32768x512, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S32768x512 ![] Facts₀.bcast_S_S32768x512),
    StableHlo.TRef.binary main_call1.v3 (.of main_v48 : StableHlo.TRef sig ⟨S32768x512, .f32⟩) main_call1.v4 mulf,
    StableHlo.TRef.ternary main_call1.v1 (.of main_v48 : StableHlo.TRef sig ⟨S32768x512, .f32⟩) main_call1.v4 main_call1.call0.v0 select,
    StableHlo.binary main_v24 main_arg6 main_v50 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    StableHlo.unary main_arg7 main_v51 (broadcastInDim S1x1024 ![1] Facts₀.bcast_S1024_S1x1024_1 : (⟨S1024, .f32⟩ : BufTy).Contents (Elt F) → (⟨S1x1024, .f32⟩ : BufTy).Contents (Elt F)),
    StableHlo.unary main_v51 main_v52 (broadcastInDim S32768x1024 ![0, 1] Facts₀.bcast_S1x1024_S32768x1024_0_1 : (⟨S1x1024, .f32⟩ : BufTy).Contents (Elt F) → (⟨S32768x1024, .f32⟩ : BufTy).Contents (Elt F)),
    StableHlo.binary main_v50 main_v52 main_v53 (addf : (⟨S32768x1024, .f32⟩ : BufTy).Contents (Elt F) → (⟨S32768x1024, .f32⟩ : BufTy).Contents (Elt F) → (⟨S32768x1024, .f32⟩ : BufTy).Contents (Elt F)),
    StableHlo.binary main_v49 main_arg8 main_v54 ((fun l r => Host.dotGeneral dot_S32768x512_S512x1024_S32768x1024_1_0_0_1_n_n none l r) : (⟨S32768x512, .f32⟩ : BufTy).Contents (Elt F) → (⟨S512x1024, .f32⟩ : BufTy).Contents (Elt F) → (⟨S32768x1024, .f32⟩ : BufTy).Contents (Elt F)),
    StableHlo.unary main_arg9 main_v55 (broadcastInDim S1x1024 ![1] Facts₀.bcast_S1024_S1x1024_1 : (⟨S1024, .f32⟩ : BufTy).Contents (Elt F) → (⟨S1x1024, .f32⟩ : BufTy).Contents (Elt F)),
    StableHlo.unary main_v55 main_v56 (broadcastInDim S32768x1024 ![0, 1] Facts₀.bcast_S1x1024_S32768x1024_0_1 : (⟨S1x1024, .f32⟩ : BufTy).Contents (Elt F) → (⟨S32768x1024, .f32⟩ : BufTy).Contents (Elt F)),
    StableHlo.binary main_v54 main_v56 main_v57 (addf : (⟨S32768x1024, .f32⟩ : BufTy).Contents (Elt F) → (⟨S32768x1024, .f32⟩ : BufTy).Contents (Elt F) → (⟨S32768x1024, .f32⟩ : BufTy).Contents (Elt F)),
    StableHlo.binary main_v24 main_arg10 main_v58 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    StableHlo.unary main_arg11 main_v59 (broadcastInDim S1x1024 ![1] Facts₀.bcast_S1024_S1x1024_1 : (⟨S1024, .f32⟩ : BufTy).Contents (Elt F) → (⟨S1x1024, .f32⟩ : BufTy).Contents (Elt F)),
    StableHlo.unary main_v59 main_v60 (broadcastInDim S32768x1024 ![0, 1] Facts₀.bcast_S1x1024_S32768x1024_0_1 : (⟨S1x1024, .f32⟩ : BufTy).Contents (Elt F) → (⟨S32768x1024, .f32⟩ : BufTy).Contents (Elt F)),
    StableHlo.binary main_v58 main_v60 main_v61 (addf : (⟨S32768x1024, .f32⟩ : BufTy).Contents (Elt F) → (⟨S32768x1024, .f32⟩ : BufTy).Contents (Elt F) → (⟨S32768x1024, .f32⟩ : BufTy).Contents (Elt F)),
    StableHlo.binary main_v49 main_arg12 main_v62 ((fun l r => Host.dotGeneral dot_S32768x512_S512x1024_S32768x1024_1_0_0_1_n_n none l r) : (⟨S32768x512, .f32⟩ : BufTy).Contents (Elt F) → (⟨S512x1024, .f32⟩ : BufTy).Contents (Elt F) → (⟨S32768x1024, .f32⟩ : BufTy).Contents (Elt F)),
    StableHlo.unary main_arg13 main_v63 (broadcastInDim S1x1024 ![1] Facts₀.bcast_S1024_S1x1024_1 : (⟨S1024, .f32⟩ : BufTy).Contents (Elt F) → (⟨S1x1024, .f32⟩ : BufTy).Contents (Elt F)),
    StableHlo.unary main_v63 main_v64 (broadcastInDim S32768x1024 ![0, 1] Facts₀.bcast_S1x1024_S32768x1024_0_1 : (⟨S1x1024, .f32⟩ : BufTy).Contents (Elt F) → (⟨S32768x1024, .f32⟩ : BufTy).Contents (Elt F)),
    StableHlo.binary main_v62 main_v64 main_v65 (addf : (⟨S32768x1024, .f32⟩ : BufTy).Contents (Elt F) → (⟨S32768x1024, .f32⟩ : BufTy).Contents (Elt F) → (⟨S32768x1024, .f32⟩ : BufTy).Contents (Elt F)),
    StableHlo.binary main_v61 main_v65 main_v66 (addf : (⟨S32768x1024, .f32⟩ : BufTy).Contents (Elt F) → (⟨S32768x1024, .f32⟩ : BufTy).Contents (Elt F) → (⟨S32768x1024, .f32⟩ : BufTy).Contents (Elt F)),
    StableHlo.unary main_v66 main_v67 (Host.negf : (⟨S32768x1024, .f32⟩ : BufTy).Contents (Elt F) → (⟨S32768x1024, .f32⟩ : BufTy).Contents (Elt F)),
    StableHlo.unary main_v67 main_v68 (Host.exp : (⟨S32768x1024, .f32⟩ : BufTy).Contents (Elt F) → (⟨S32768x1024, .f32⟩ : BufTy).Contents (Elt F)),
    StableHlo.nullary main_cst_11 (constant S_ .f32 0x3F800000#32),
    StableHlo.unary main_cst_11 main_v69 (broadcastInDim S32768x1024 ![] Facts₀.bcast_S_S32768x1024 : (⟨S_, .f32⟩ : BufTy).Contents (Elt F) → (⟨S32768x1024, .f32⟩ : BufTy).Contents (Elt F)),
    StableHlo.binary main_v69 main_v68 main_v70 (addf : (⟨S32768x1024, .f32⟩ : BufTy).Contents (Elt F) → (⟨S32768x1024, .f32⟩ : BufTy).Contents (Elt F) → (⟨S32768x1024, .f32⟩ : BufTy).Contents (Elt F)),
    StableHlo.nullary main_cst_12 (constant S_ .f32 0x3F800000#32),
    StableHlo.unary main_cst_12 main_v71 (broadcastInDim S32768x1024 ![] Facts₀.bcast_S_S32768x1024 : (⟨S_, .f32⟩ : BufTy).Contents (Elt F) → (⟨S32768x1024, .f32⟩ : BufTy).Contents (Elt F)),
    StableHlo.binary main_v71 main_v70 main_v72 (Host.divf : (⟨S32768x1024, .f32⟩ : BufTy).Contents (Elt F) → (⟨S32768x1024, .f32⟩ : BufTy).Contents (Elt F) → (⟨S32768x1024, .f32⟩ : BufTy).Contents (Elt F)),
    StableHlo.binary main_v53 main_v57 main_v73 (addf : (⟨S32768x1024, .f32⟩ : BufTy).Contents (Elt F) → (⟨S32768x1024, .f32⟩ : BufTy).Contents (Elt F) → (⟨S32768x1024, .f32⟩ : BufTy).Contents (Elt F)),
    StableHlo.binary main_v72 main_v73 main_v74 (mulf : (⟨S32768x1024, .f32⟩ : BufTy).Contents (Elt F) → (⟨S32768x1024, .f32⟩ : BufTy).Contents (Elt F) → (⟨S32768x1024, .f32⟩ : BufTy).Contents (Elt F)) ]

/-- Every operation of the first list touches TensorCore references only. -/
theorem ops0_sub : (ops0 : List (HloOp τ sig (Elt F))).Forall fun op => op.bufs ⊆ tcRefs τ sig :=
  ⟨nullary_bufs_sub .., binary_bufs_sub .., unary_bufs_sub .., nullary_bufs_sub .., unary_bufs_sub ..,
    binary_bufs_sub .., unary_bufs_sub .., binary_bufs_sub .., binary_bufs_sub .., nullary_bufs_sub ..,
    binary_bufs_sub .., unary_bufs_sub .., nullary_bufs_sub .., unary_bufs_sub .., binary_bufs_sub ..,
    unary_bufs_sub .., binary_bufs_sub .., nullary_bufs_sub .., unary_bufs_sub .., binary_bufs_sub ..,
    unary_bufs_sub .., unary_bufs_sub .., binary_bufs_sub .., unary_bufs_sub .., unary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub ..,
    binary_bufs_sub .., ternary_bufs_sub .., nullary_bufs_sub .., binary_bufs_sub .., unary_bufs_sub ..,
    nullary_bufs_sub .., unary_bufs_sub .., binary_bufs_sub .., unary_bufs_sub .., binary_bufs_sub ..,
    binary_bufs_sub .., nullary_bufs_sub .., binary_bufs_sub .., unary_bufs_sub .., nullary_bufs_sub ..,
    unary_bufs_sub .., binary_bufs_sub .., unary_bufs_sub .., binary_bufs_sub .., nullary_bufs_sub ..,
    unary_bufs_sub .., binary_bufs_sub .., unary_bufs_sub .., unary_bufs_sub .., binary_bufs_sub ..,
    unary_bufs_sub .., unary_bufs_sub .., binary_bufs_sub .., unary_bufs_sub .., unary_bufs_sub ..,
    binary_bufs_sub ..⟩

/-- Every operation of the second list touches TensorCore references only. -/
theorem ops1_sub : (ops1 : List (HloOp τ sig (Elt F))).Forall fun op => op.bufs ⊆ tcRefs τ sig :=
  ⟨nullary_bufs_sub .., nullary_bufs_sub .., unary_bufs_sub .., binary_bufs_sub .., unary_bufs_sub ..,
    unary_bufs_sub .., binary_bufs_sub .., ternary_bufs_sub .., binary_bufs_sub .., unary_bufs_sub ..,
    unary_bufs_sub .., binary_bufs_sub .., binary_bufs_sub .., unary_bufs_sub .., unary_bufs_sub ..,
    binary_bufs_sub .., binary_bufs_sub .., unary_bufs_sub .., unary_bufs_sub .., binary_bufs_sub ..,
    binary_bufs_sub .., unary_bufs_sub .., unary_bufs_sub .., binary_bufs_sub .., binary_bufs_sub ..,
    unary_bufs_sub .., unary_bufs_sub .., nullary_bufs_sub .., unary_bufs_sub .., binary_bufs_sub ..,
    nullary_bufs_sub .., unary_bufs_sub .., binary_bufs_sub .., binary_bufs_sub .., binary_bufs_sub ..⟩

/-- Every operation of the first list determines all it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩

/-- Every operation of the second list determines all it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

end Cert.ReferenceIdeal.RefOps

end
-- ==== Proof.RefRun.lean ====
/-
  The reference's run: every weakly fair execution of its @main terminates with the result buffer at `RefTerm.refOut`
  of the arguments' launch contents, the arguments unchanged.

  @main is one straight line of 101 host operations once each call is replaced by its callee's body over the call's
  buffers: 66 in its first window (`ops0`), 35 in its second (`ops1`). A straight line run from contents `V` leaves
  every buffer at the fold of the operations' results over `V` (`after`); the fold along two lists in turn is the fold
  along the second from the fold along the first. Read at the result buffer the fold is a closed term of the fourteen
  arguments' contents, and that term is `RefTerm.refOut` with its definitions opened; read at an argument's buffer it
  is the argument's contents, since no operation writes an argument.
-/
import proofs.«125668_j41180146434605_1_alg».proof.Proof.Gen.ReferenceIdeal
import proofs.«125668_j41180146434605_1_alg».proof.Proof.RefTerm
import proofs.«125668_j41180146434605_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-! ## @main as one line of operations -/

set_option maxRecDepth 4096 in
set_option maxHeartbeats 4000000 in
/-- The second window is the line of its 35 operations: the rectifier's body, and the select's inside it, stand where
    they are called, and sequencing associates to the right (`bind_assoc`), a callee's closing return absorbed by
    what follows it (`pure_bind`). -/
private theorem main_part1_eq (c : Dev nD) : main_part1 (F := F) c = seq ops1 := by
  simp only [main_part1, fn_leaky_relu_0.body, fn_where_1.body, seq, bind_assoc, pure_bind]

set_option maxRecDepth 4096 in
set_option maxHeartbeats 4000000 in
/-- The first window is the line of its 66 operations, in the same way. The window ends in an operation and the line
    in a return after it: binding a return after a step that continues with a return is that step. -/
private theorem main_part0_eq (c : Dev nD) : main_part0 (F := F) c = seq ops0 := by
  simp only [main_part0, fn_leaky_relu.body, fn_where.body, seq, bind_assoc, pure_bind]
  rfl

/-- @main runs its two windows in order, and two lines run in order are their concatenation run as one. -/
private theorem main_eq (c : Dev nD) : main (F := F) c = seq (ops0 ++ ops1) := by
  rw [seq_append, ← main_part0_eq c, ← main_part1_eq c]
  rfl

/-- The fold along a concatenation is the fold along the second list from the fold along the first. -/
private theorem after_two_lists : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two_lists l₁ l₂]

/-! ## The fold at the result and at the arguments -/

set_option maxRecDepth 8192 in
set_option maxHeartbeats 4000000 in
/-- The fold at the result buffer. Each operation's result at its own buffer is its function of its operands'
    contents, and at any other buffer what was there; composed from the last operation back, the product at the
    result buffer is the gate's quotient times the sum of the two output layers, each dense layer a matrix product of
    a rectified stream plus a broadcast bias, each rectified stream a select between the normalised stream and its
    multiple by the slope, the normalised stream built from the two row reductions of its argument. That closed term
    of the arguments' contents is `RefTerm.refOut` with `gate`, `dense1`, `dense2`, `act1`, `act2` and the host's
    spelling of the normalisation opened: the two agree operation by operation (a shared intermediate of the program
    is a repeated subterm of the definition). -/
private theorem out_eq (V : Valuation τ sig (Elt F)) :
    after ops1 (after ops0 V) (main_v74 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  rfl

/-! No operation of either list writes an argument's buffer (each writes the buffer of the value it defines), so the
    fold at an argument's buffer is what the buffer held: one statement per argument. -/

set_option maxRecDepth 8192 in
set_option maxHeartbeats 4000000 in
private theorem arg0_eq (V : Valuation τ sig (Elt F)) :
    after ops1 (after ops0 V) (main_arg0 : DevRef τ sig) = V (main_arg0 : DevRef τ sig) := by
  after_results_simp

set_option maxRecDepth 8192 in
set_option maxHeartbeats 4000000 in
private theorem arg1_eq (V : Valuation τ sig (Elt F)) :
    after ops1 (after ops0 V) (main_arg1 : DevRef τ sig) = V (main_arg1 : DevRef τ sig) := by
  after_results_simp

set_option maxRecDepth 8192 in
set_option maxHeartbeats 4000000 in
private theorem arg2_eq (V : Valuation τ sig (Elt F)) :
    after ops1 (after ops0 V) (main_arg2 : DevRef τ sig) = V (main_arg2 : DevRef τ sig) := by
  after_results_simp

set_option maxRecDepth 8192 in
set_option maxHeartbeats 4000000 in
private theorem arg3_eq (V : Valuation τ sig (Elt F)) :
    after ops1 (after ops0 V) (main_arg3 : DevRef τ sig) = V (main_arg3 : DevRef τ sig) := by
  after_results_simp

set_option maxRecDepth 8192 in
set_option maxHeartbeats 4000000 in
private theorem arg4_eq (V : Valuation τ sig (Elt F)) :
    after ops1 (after ops0 V) (main_arg4 : DevRef τ sig) = V (main_arg4 : DevRef τ sig) := by
  after_results_simp

set_option maxRecDepth 8192 in
set_option maxHeartbeats 4000000 in
private theorem arg5_eq (V : Valuation τ sig (Elt F)) :
    after ops1 (after ops0 V) (main_arg5 : DevRef τ sig) = V (main_arg5 : DevRef τ sig) := by
  after_results_simp

set_option maxRecDepth 8192 in
set_option maxHeartbeats 4000000 in
private theorem arg6_eq (V : Valuation τ sig (Elt F)) :
    after ops1 (after ops0 V) (main_arg6 : DevRef τ sig) = V (main_arg6 : DevRef τ sig) := by
  after_results_simp

set_option maxRecDepth 8192 in
set_option maxHeartbeats 4000000 in
private theorem arg7_eq (V : Valuation τ sig (Elt F)) :
    after ops1 (after ops0 V) (main_arg7 : DevRef τ sig) = V (main_arg7 : DevRef τ sig) := by
  after_results_simp

set_option maxRecDepth 8192 in
set_option maxHeartbeats 4000000 in
private theorem arg8_eq (V : Valuation τ sig (Elt F)) :
    after ops1 (after ops0 V) (main_arg8 : DevRef τ sig) = V (main_arg8 : DevRef τ sig) := by
  after_results_simp

set_option maxRecDepth 8192 in
set_option maxHeartbeats 4000000 in
private theorem arg9_eq (V : Valuation τ sig (Elt F)) :
    after ops1 (after ops0 V) (main_arg9 : DevRef τ sig) = V (main_arg9 : DevRef τ sig) := by
  after_results_simp

set_option maxRecDepth 8192 in
set_option maxHeartbeats 4000000 in
private theorem arg10_eq (V : Valuation τ sig (Elt F)) :
    after ops1 (after ops0 V) (main_arg10 : DevRef τ sig) = V (main_arg10 : DevRef τ sig) := by
  after_results_simp

set_option maxRecDepth 8192 in
set_option maxHeartbeats 4000000 in
private theorem arg11_eq (V : Valuation τ sig (Elt F)) :
    after ops1 (after ops0 V) (main_arg11 : DevRef τ sig) = V (main_arg11 : DevRef τ sig) := by
  after_results_simp

set_option maxRecDepth 8192 in
set_option maxHeartbeats 4000000 in
private theorem arg12_eq (V : Valuation τ sig (Elt F)) :
    after ops1 (after ops0 V) (main_arg12 : DevRef τ sig) = V (main_arg12 : DevRef τ sig) := by
  after_results_simp

set_option maxRecDepth 8192 in
set_option maxHeartbeats 4000000 in
private theorem arg13_eq (V : Valuation τ sig (Elt F)) :
    after ops1 (after ops0 V) (main_arg13 : DevRef τ sig) = V (main_arg13 : DevRef τ sig) := by
  after_results_simp

/-! ## The run -/

/-- No TensorCore buffer of the program is scoped. -/
private theorem scopedRefs_eq : (Finset.univ.filter fun b : Ref sig .tc => b.isScoped) = ∅ := by decide
/-- The program has no semaphore, so none is scoped. -/
private theorem scopedSems_eq : (Finset.univ.filter fun sm : SemLoc sig => sm.isScoped .tc) = ∅ := by decide

/-- On the device, for any float values, from any memory with zero counters: every weakly fair execution of @main
    terminates, the result buffer at `RefTerm.refOut` of the arguments' launch contents and each argument's buffer
    unchanged. The straight line's run leaves every buffer at the fold over the launch contents; the fold along the two
    lists is read at the fifteen buffers by the statements above. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono
    (fun _ h c => ⟨(h c main_v74).trans ((congrFun (after_two_lists ops0 ops1 _) _).trans (out_eq _)),
      (h c main_arg0).trans ((congrFun (after_two_lists ops0 ops1 _) _).trans (arg0_eq _)),
      (h c main_arg1).trans ((congrFun (after_two_lists ops0 ops1 _) _).trans (arg1_eq _)),
      (h c main_arg2).trans ((congrFun (after_two_lists ops0 ops1 _) _).trans (arg2_eq _)),
      (h c main_arg3).trans ((congrFun (after_two_lists ops0 ops1 _) _).trans (arg3_eq _)),
      (h c main_arg4).trans ((congrFun (after_two_lists ops0 ops1 _) _).trans (arg4_eq _)),
      (h c main_arg5).trans ((congrFun (after_two_lists ops0 ops1 _) _).trans (arg5_eq _)),
      (h c main_arg6).trans ((congrFun (after_two_lists ops0 ops1 _) _).trans (arg6_eq _)),
      (h c main_arg7).trans ((congrFun (after_two_lists ops0 ops1 _) _).trans (arg7_eq _)),
      (h c main_arg8).trans ((congrFun (after_two_lists ops0 ops1 _) _).trans (arg8_eq _)),
      (h c main_arg9).trans ((congrFun (after_two_lists ops0 ops1 _) _).trans (arg9_eq _)),
      (h c main_arg10).trans ((congrFun (after_two_lists ops0 ops1 _) _).trans (arg10_eq _)),
      (h c main_arg11).trans ((congrFun (after_two_lists ops0 ops1 _) _).trans (arg11_eq _)),
      (h c main_arg12).trans ((congrFun (after_two_lists ops0 ops1 _) _).trans (arg12_eq _)),
      (h c main_arg13).trans ((congrFun (after_two_lists ops0 ops1 _) _).trans (arg13_eq _))⟩)
    (run_seq scopedRefs_eq scopedSems_eq defs main (fun _ => ops0 ++ ops1) main_eq
      (fun _ => List.forall_append.2 ⟨ops0_sub, ops1_sub⟩) m ρ
      (fun _ => List.forall_iff_forall_mem.1 (List.forall_append.2 ⟨ops0_fresh, ops1_fresh⟩)))

end Cert.ReferenceIdeal.RefRun

end
-- ==== Proof.RefValue.lean ====
/-
  The reference's result term, at the extended reals, is the array function `arrOut` of its arguments: read at (r, j),
  each stream's normalised and rectified activations are the row function of row `r`, each dense layer is the sum over
  the contracted coordinate plus the bias, and the gate is the logistic function.
-/
import proofs.«125668_j41180146434605_1_alg».proof.Proof.RefTerm
import proofs.«125668_j41180146434605_1_alg».proof.Proof.RowSpec
import proofs.«125668_j41180146434605_1_alg».proof.Proof.LibDense
import Idealize.ShloMosaic.Lib.IdealHost

noncomputable section

namespace Cert.ReferenceIdeal.RefValue

open Idealize.ShloMosaic Idealize.ShloMosaic.ValueIdx Cert.ReferenceIdeal Cert.VecMerge Cert.LibRowNorm

/-- A host dense layer — the rows-by-columns product plus a bias vector laid along axis 1 of a one-row matrix and that
    row down the rows — read at (r, j): the sum over the contracted coordinate plus the bias at `j`. -/
theorem dense_apply {M K N : ℕ} (d : DotDims ⟨2, ![M, K]⟩ ⟨2, ![K, N]⟩ ⟨2, ![M, N]⟩) (hd : d = DotDims.plain M K N)
    (h : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    addf (Host.dotGeneral d none h W)
        (broadcastInDim ⟨2, ![M, N]⟩ ![0, 1] h2 (broadcastInDim ⟨2, ![1, N]⟩ ![1] h1 b)) (ix2 r j)
      = lin (fun k => h (ix2 r k)) (fun k n => W (ix2 k n)) (fun n => b (ix1 n)) j := by
  subst hd
  have e2 := broadcastInDim_oneRow_apply h2 (broadcastInDim ⟨2, ![1, N]⟩ ![1] h1 b) r j
  have e1 := broadcastInDim_apply ![1] h1 b (ix2 (0 : Fin 1) j) (ix1 j) (fun a => by
    match a with
    | ⟨0, _⟩ =>
      show j.val = if N = 1 then 0 else j.val
      split
      · have := j.isLt; omega
      · rfl)
  show FloatOps.dotGeneral (DotDims.plain M K N) none .single h W (ix2 r j)
      + broadcastInDim ⟨2, ![M, N]⟩ ![0, 1] h2 (broadcastInDim ⟨2, ![1, N]⟩ ![1] h1 b) (ix2 r j) = _
  rw [Cert.LibDense.dotGeneral_plain_apply, e2, e1]
  rfl

/-- One over (one plus the exponential of the negated argument), with the two ones broadcast scalars, read at an index:
    the logistic function there. -/
theorem gate_apply {s : Shape} (hb : (⟨0, ![]⟩ : Shape).BroadcastsInDim s ![]) (g : FVec Ideal s .f32) (i : s.Idx) :
    Host.divf (broadcastInDim s ![] hb (constant (F := Ideal) ⟨0, ![]⟩ .f32 0x3F800000#32))
        (addf (broadcastInDim s ![] hb (constant (F := Ideal) ⟨0, ![]⟩ .f32 0x3F800000#32)) (Host.exp (Host.negf g))) i
      = Ideal.logistic (g i) := by
  have e0 := broadcastInDim_apply ![] hb (constant (F := Ideal) ⟨0, ![]⟩ .f32 0x3F800000#32) i (fun a => a.elim0)
    (fun a => a.elim0)
  show Ideal.div (broadcastInDim s ![] hb (constant (F := Ideal) ⟨0, ![]⟩ .f32 0x3F800000#32) i)
      (broadcastInDim s ![] hb (constant (F := Ideal) ⟨0, ![]⟩ .f32 0x3F800000#32) i + Ideal.exp (-(g i))) = _
  rw [e0]
  show Ideal.div (Ideal.ofBits .f32 0x3F800000#32) (Ideal.ofBits .f32 0x3F800000#32 + Ideal.exp (-(g i))) = _
  rw [Ideal.ofBits_one_f32]
  rfl

variable [Cert.ReferenceIdeal.Facts]

open Cert.ReferenceIdeal.Facts₀

/-- Stream 1's activations at (r, k): the row function of row `r`. -/
theorem act1_apply (x : FVec Ideal S32768x1024 .f32) (s b : FVec Ideal S1024 .f32) (r : Fin 32768) (k : Fin 1024) :
    RefTerm.act1 (F := Ideal) x s b (ix2 r k)
      = normAct d1 eps slope zero (fun k' => x (ix2 r k')) (fun k' => s (ix1 k')) (fun k' => b (ix1 k')) k :=
  hostNormAct_apply 0x44800000#32 0x358637BD#32 0x3C23D70A#32 0x00000000#32 _ _ _ _ _ _ _ _ x s b r k

/-- Stream 2's activations at (r, k): the row function of row `r`. -/
theorem act2_apply (x : FVec Ideal S32768x512 .f32) (s b : FVec Ideal S512 .f32) (r : Fin 32768) (k : Fin 512) :
    RefTerm.act2 (F := Ideal) x s b (ix2 r k)
      = normAct d2 eps slope zero (fun k' => x (ix2 r k')) (fun k' => s (ix1 k')) (fun k' => b (ix1 k')) k :=
  hostNormAct_apply 0x44000000#32 0x358637BD#32 0x3C23D70A#32 0x00000000#32 _ _ _ _ _ _ _ _ x s b r k

/-- A dense layer on stream 1 at (r, j). -/
theorem dense1_apply (h : FVec Ideal S32768x1024 .f32) (W : FVec Ideal S1024x1024 .f32) (b : FVec Ideal S1024 .f32)
    (r : Fin 32768) (j : Fin 1024) :
    RefTerm.dense1 (F := Ideal) h W b (ix2 r j)
      = lin (fun k => h (ix2 r k)) (fun k n => W (ix2 k n)) (fun n => b (ix1 n)) j :=
  dense_apply dot_S32768x1024_S1024x1024_S32768x1024_1_0_0_1_n_n rfl h W b _ _ r j

/-- A dense layer on stream 2 at (r, j). -/
theorem dense2_apply (h : FVec Ideal S32768x512 .f32) (W : FVec Ideal S512x1024 .f32) (b : FVec Ideal S1024 .f32)
    (r : Fin 32768) (j : Fin 1024) :
    RefTerm.dense2 (F := Ideal) h W b (ix2 r j)
      = lin (fun k => h (ix2 r k)) (fun k n => W (ix2 k n)) (fun n => b (ix1 n)) j :=
  dense_apply dot_S32768x512_S512x1024_S32768x1024_1_0_0_1_n_n rfl h W b _ _ r j

theorem refOut_eq (a0 : FVec Ideal S32768x1024 .f32) (a1 : FVec Ideal S32768x512 .f32) (a2 a3 : FVec Ideal S1024 .f32) (a4 a5 : FVec Ideal S512 .f32)
    (a6 : FVec Ideal S1024x1024 .f32) (a7 : FVec Ideal S1024 .f32) (a8 : FVec Ideal S512x1024 .f32) (a9 : FVec Ideal S1024 .f32)
    (a10 : FVec Ideal S1024x1024 .f32) (a11 : FVec Ideal S1024 .f32) (a12 : FVec Ideal S512x1024 .f32) (a13 : FVec Ideal S1024 .f32) :
    RefTerm.refOut (F := Ideal) a0 a1 a2 a3 a4 a5 a6 a7 a8 a9 a10 a11 a12 a13
      = arrOut a0 a1 a2 a3 a4 a5 a6 a7 a8 a9 a10 a11 a12 a13 := by
  funext i
  obtain ⟨r, j, rfl⟩ : ∃ (r : Fin 32768) (j : Fin 1024), i = ix2 r j := ⟨i 0, i 1, eq_ix2 i⟩
  rw [arrOut_ix2]
  have f1 : (fun k => RefTerm.act1 (F := Ideal) a0 a2 a3 (ix2 r k))
      = normAct d1 eps slope zero (fun k' => a0 (ix2 r k')) (fun k' => a2 (ix1 k')) (fun k' => a3 (ix1 k')) :=
    funext fun k => act1_apply a0 a2 a3 r k
  have f2 : (fun k => RefTerm.act2 (F := Ideal) a1 a4 a5 (ix2 r k))
      = normAct d2 eps slope zero (fun k' => a1 (ix2 r k')) (fun k' => a4 (ix1 k')) (fun k' => a5 (ix1 k')) :=
    funext fun k => act2_apply a1 a4 a5 r k
  show RefTerm.gate (addf (RefTerm.dense1 (RefTerm.act1 a0 a2 a3) a10 a11) (RefTerm.dense2 (RefTerm.act2 a1 a4 a5) a12 a13)) (ix2 r j)
      * (RefTerm.dense1 (RefTerm.act1 a0 a2 a3) a6 a7 (ix2 r j) + RefTerm.dense2 (RefTerm.act2 a1 a4 a5) a8 a9 (ix2 r j)) = _
  rw [dense1_apply, dense2_apply, f1, f2]
  unfold RefTerm.gate
  rw [gate_apply]
  show Ideal.logistic (RefTerm.dense1 (RefTerm.act1 a0 a2 a3) a10 a11 (ix2 r j) + RefTerm.dense2 (RefTerm.act2 a1 a4 a5) a12 a13 (ix2 r j)) * _ = _
  rw [dense1_apply, dense2_apply, f1, f2]
  rfl

end Cert.ReferenceIdeal.RefValue

end
-- ==== Proof.lean ====
/-
  Two streams of rows, each normalised (mean and variance over the row, a stabilised reciprocal square root, a scale and
  a shift), rectified with a small negative slope, and fed to an output layer and a gate layer; the result is the logistic
  function of the summed gate layers times the summed output layers.

  The kernel computes this on tiles of 512 rows, rounding the activations and the weight matrices to a narrower float
  format before its matrix products; over the extended reals a change of format is the identity, a lane sum is a sum, a
  matrix product into a zero accumulator is a sum over the contracted coordinate, and the logistic function is one over
  one plus the exponential of the negated argument. So tile `t`, row `p`, column `j` of the kernel's result and row
  `512·t + p`, column `j` of the reference's are the same function `Cert.VecMerge.rowOut` of that row of the two inputs.
  No algebraic law beyond this reading is used, so the inputs' finiteness is never opened.

  The frames of the two kernel programs are the generated ones; the reference's frame is its run with the result dropped.
  The ideal pass rewrote nothing, so the idealization conjunct is trivial.
-/
import proofs.«125668_j41180146434605_1_alg».proof.Defs
import proofs.«125668_j41180146434605_1_alg».proof.Proof.Gen.Kernel
import proofs.«125668_j41180146434605_1_alg».proof.Proof.Gen.Kernel.Frame
import proofs.«125668_j41180146434605_1_alg».proof.Proof.Gen.KernelIdeal
import proofs.«125668_j41180146434605_1_alg».proof.Proof.Gen.KernelIdeal.Frame
import proofs.«125668_j41180146434605_1_alg».proof.Proof.Gen.KernelIdeal.Value
import proofs.«125668_j41180146434605_1_alg».proof.Proof.Gen.ReferenceIdeal
import proofs.«125668_j41180146434605_1_alg».proof.Proof.Gen.Pre_finite_inputs
import proofs.«125668_j41180146434605_1_alg».proof.Proof.KernelArr
import proofs.«125668_j41180146434605_1_alg».proof.Proof.RefRun
import proofs.«125668_j41180146434605_1_alg».proof.Proof.RefValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the result array at `arrOut` of arguments that agree. -/
theorem algebraic : Cert.algebraic_KernelIdeal_ReferenceIdeal := by
  intro m ρ m' ρ' _ hagree
  refine ⟨_, Cert.KernelIdeal.KArr.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq]
  obtain ⟨h0, h1, h2, h3, h4, h5, h6, h7, h8, h9, h10, h11, h12, h13⟩ := hagree c
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
